-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S2x8388608 : Shape := ⟨2, ![2, 8388608]⟩
abbrev S131072 : Shape := ⟨1, ![131072]⟩
abbrev S1x16 : Shape := ⟨2, ![1, 16]⟩
abbrev S16 : Shape := ⟨1, ![16]⟩
abbrev S16x1 : Shape := ⟨2, ![16, 1]⟩
abbrev S1 : Shape := ⟨1, ![1]⟩
abbrev S16x8 : Shape := ⟨2, ![16, 8]⟩
abbrev S8 : Shape := ⟨1, ![8]⟩
abbrev S8x1 : Shape := ⟨2, ![8, 1]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S16x8 .f32) (main_arg10 : FVec F S8 .f32) (main_arg11 : FVec F S8x1 .f32) (main_arg12 : FVec F S1 .f32) (main_v33 : IVec S_ 1) : IVec S_ 1 :=
  let main_v34 : FVec F S16x8 .f32 := Host.absf main_arg9
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x1 .f32 := Host.absf main_arg11
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S1 .f32) (main_arg7 : FVec F S1x16 .f32) (main_arg8 : FVec F S16 .f32) (main_arg9 : FVec F S16x8 .f32) (main_arg10 : FVec F S8 .f32) (main_arg11 : FVec F S8x1 .f32) (main_arg12 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x16 .f32 := Host.absf main_arg7
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S131072x1 .f32) (main_arg1 : IVec S2x8388608 32) (main_arg2 : IVec S131072 32) (main_arg3 : FVec F S1x16 .f32) (main_arg4 : FVec F S16 .f32) (main_arg5 : FVec F S16x1 .f32) (main_arg6 : FVec F S1 .f32) (main_arg7 : FVec F S1x16 .f32) (main_arg8 : FVec F S16 .f32) (main_arg9 : FVec F S16x8 .f32) (main_arg10 : FVec F S8 .f32) (main_arg11 : FVec F S8x1 .f32) (main_arg12 : FVec F S1 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1x16 .f32 := Host.absf main_arg3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg5
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg6 main_arg7 main_arg8 main_arg9 main_arg10 main_arg11 main_arg12 main_v13 main_v16
-- ==== Kernel.lean ====
abbrev S131072x1 : Shape := ⟨2, ![131072, 1]⟩
abbrev S2x8388608 : Shape := ⟨2, ![2, 8388608]⟩
abbrev S131072 : Shape := ⟨1, ![131072]⟩
abbrev S1x16 : Shape := ⟨2, ![1, 16]⟩
abbrev S16 : Shape := ⟨1, ![16]⟩
abbrev S16x1 : Shape := ⟨2, ![16, 1]⟩
abbrev S1 : Shape := ⟨1, ![1]⟩
abbrev S16x8 : Shape := ⟨2, ![16, 8]⟩
abbrev S8 : Shape := ⟨1, ![8]⟩
abbrev S8x1 : Shape := ⟨2, ![8, 1]⟩
abbrev S1x8388608 : Shape := ⟨2, ![1, 8388608]⟩
abbrev S8388608 : Shape := ⟨1, ![8388608]⟩
abbrev S8519680 : Shape := ⟨1, ![8519680]⟩
abbrev S_ : Shape := ⟨0, ![]⟩
abbrev S8519680x1 : Shape := ⟨2, ![8519680, 1]⟩
abbrev S66560x128 : Shape := ⟨2, ![66560, 128]⟩
abbrev S128x128 : Shape := ⟨2, ![128, 128]⟩
abbrev S131072x16 : Shape := ⟨2, ![131072, 16]⟩
abbrev S1x1 : Shape := ⟨2, ![1, 1]⟩
abbrev S131072x8 : Shape := ⟨2, ![131072, 8]⟩
abbrev S1x8 : Shape := ⟨2, ![1, 8]⟩
abbrev S64x1 : Shape := ⟨2, ![64, 1]⟩
abbrev S64 : Shape := ⟨1, ![64]⟩

abbrev nBuf : Space → Nat
  | .hbm => 159
  | .vmem => 16
  | .smem => 0
  | _ => 0

abbrev hbmTy0_0 (i : Nat) : BufTy := match i % 128 with
  | 0 => ⟨S131072x1, .f32⟩
  | 1 => ⟨S2x8388608, .i32⟩
  | 2 => ⟨S131072, .i32⟩
  | 3 => ⟨S1x16, .f32⟩
  | 4 => ⟨S16, .f32⟩
  | 5 => ⟨S16x1, .f32⟩
  | 6 => ⟨S1, .f32⟩
  | 7 => ⟨S1x16, .f32⟩
  | 8 => ⟨S16, .f32⟩
  | 9 => ⟨S16x8, .f32⟩
  | 10 => ⟨S8, .f32⟩
  | 11 => ⟨S8x1, .f32⟩
  | 12 => ⟨S1, .f32⟩
  | 13 => ⟨S1x8388608, .i32⟩
  | 14 => ⟨S8388608, .i32⟩
  | 15 => ⟨S1x8388608, .i32⟩
  | 16 => ⟨S8388608, .i32⟩
  | 17 => ⟨S131072, .i32⟩
  | 18 => ⟨S8519680, .i32⟩
  | 19 => ⟨S8519680, .i32⟩
  | 20 => ⟨S_, .f32⟩
  | 21 => ⟨S8519680, .f32⟩
  | 22 => ⟨S_, .f32⟩
  | 23 => ⟨S131072, .f32⟩
  | 24 => ⟨S8519680x1, .i32⟩
  | 25 => ⟨S131072, .f32⟩
  | 26 => ⟨S_, .f32⟩
  | 27 => ⟨S131072, .f32⟩
  | 28 => ⟨S131072, .i1⟩
  | 29 => ⟨S131072, .f32⟩
  | 30 => ⟨S_, .f32⟩
  | 31 => ⟨S_, .f32⟩
  | 32 => ⟨S131072, .f32⟩
  | 33 => ⟨S131072, .f32⟩
  | 34 => ⟨S131072, .f32⟩
  | 35 => ⟨S_, .i32⟩
  | 36 => ⟨S8519680, .i32⟩
  | 37 => ⟨S8519680, .i1⟩
  | 38 => ⟨S_, .i32⟩
  | 39 => ⟨S8519680, .i32⟩
  | 40 => ⟨S8519680, .i32⟩
  | 41 => ⟨S8519680, .i32⟩
  | 42 => ⟨S8519680x1, .i32⟩
  | 43 => ⟨S8519680, .f32⟩
  | 44 => ⟨S_, .i32⟩
  | 45 => ⟨S8519680, .i32⟩
  | 46 => ⟨S8519680, .i1⟩
  | 47 => ⟨S_, .i32⟩
  | 48 => ⟨S8519680, .i32⟩
  | 49 => ⟨S8519680, .i32⟩
  | 50 => ⟨S8519680, .i32⟩
  | 51 => ⟨S8519680x1, .i32⟩
  | 52 => ⟨S8519680, .f32⟩
  | 53 => ⟨S_, .i32⟩
  | 54 => ⟨S8519680, .i32⟩
  | 55 => ⟨S8519680, .i1⟩
  | 56 => ⟨S_, .i32⟩
  | 57 => ⟨S8519680, .i32⟩
  | 58 => ⟨S8519680, .i32⟩
  | 59 => ⟨S8519680, .i32⟩
  | 60 => ⟨S8519680x1, .i32⟩
  | 61 => ⟨S8519680, .f32⟩
  | 62 => ⟨S66560x128, .f32⟩
  | 63 => ⟨S66560x128, .f32⟩
  | 64 => ⟨S66560x128, .f32⟩
  | 65 => ⟨S66560x128, .f32⟩
  | 66 => ⟨S8519680, .f32⟩
  | 67 => ⟨S_, .f32⟩
  | 68 => ⟨S131072, .f32⟩
  | 69 => ⟨S8519680x1, .i32⟩
  | 70 => ⟨S131072, .f32⟩
  | 71 => ⟨S131072x1, .f32⟩
  | 72 => ⟨S131072x16, .f32⟩
  | 73 => ⟨S131072x16, .f32⟩
  | 74 => ⟨S131072x16, .f32⟩
  | 75 => ⟨S1x16, .f32⟩
  | 76 => ⟨S131072x16, .f32⟩
  | 77 => ⟨S131072x16, .f32⟩
  | 78 => ⟨S_, .f32⟩
  | 79 => ⟨S131072x16, .f32⟩
  | 80 => ⟨S131072x16, .f32⟩
  | 81 => ⟨S131072x1, .f32⟩
  | 82 => ⟨S131072, .f32⟩
  | 83 => ⟨S_, .i32⟩
  | 84 => ⟨S8519680, .i32⟩
  | 85 => ⟨S8519680, .i1⟩
  | 86 => ⟨S_, .i32⟩
  | 87 => ⟨S8519680, .i32⟩
  | 88 => ⟨S8519680, .i32⟩
  | 89 => ⟨S8519680, .i32⟩
  | 90 => ⟨S8519680x1, .i32⟩
  | 91 => ⟨S8519680, .f32⟩
  | 92 => ⟨S_, .i32⟩
  | 93 => ⟨S8519680, .i32⟩
  | 94 => ⟨S8519680, .i1⟩
  | 95 => ⟨S_, .i32⟩
  | 96 => ⟨S8519680, .i32⟩
  | 97 => ⟨S8519680, .i32⟩
  | 98 => ⟨S8519680, .i32⟩
  | 99 => ⟨S8519680x1, .i32⟩
  | 100 => ⟨S8519680, .f32⟩
  | 101 => ⟨S_, .i32⟩
  | 102 => ⟨S8519680, .i32⟩
  | 103 => ⟨S8519680, .i1⟩
  | 104 => ⟨S_, .i32⟩
  | 105 => ⟨S8519680, .i32⟩
  | 106 => ⟨S8519680, .i32⟩
  | 107 => ⟨S8519680, .i32⟩
  | 108 => ⟨S8519680x1, .i32⟩
  | 109 => ⟨S8519680, .f32⟩
  | 110 => ⟨S66560x128, .f32⟩
  | 111 => ⟨S66560x128, .f32⟩
  | 112 => ⟨S66560x128, .f32⟩
  | 113 => ⟨S66560x128, .f32⟩
  | 114 => ⟨S8519680, .f32⟩
  | 115 => ⟨S_, .f32⟩
  | 116 => ⟨S131072, .f32⟩
  | 117 => ⟨S8519680x1, .i32⟩
  | 118 => ⟨S131072, .f32⟩
  | 119 => ⟨S131072x1, .f32⟩
  | 120 => ⟨S1x1, .f32⟩
  | 121 => ⟨S131072x1, .f32⟩
  | 122 => ⟨S131072x1, .f32⟩
  | 123 => ⟨S_, .f32⟩
  | 124 => ⟨S131072x1, .f32⟩
  | 125 => ⟨S131072x1, .f32⟩
  | 126 => ⟨S131072x16, .f32⟩
  | 127 => ⟨S1x16, .f32⟩
  | _ => ⟨S131072x1, .f32⟩

abbrev hbmTy0_1 (i : Nat) : BufTy := match i % 128 with
  | 0 => ⟨S131072x16, .f32⟩
  | 1 => ⟨S131072x16, .f32⟩
  | 2 => ⟨S_, .f32⟩
  | 3 => ⟨S131072x16, .f32⟩
  | 4 => ⟨S131072x16, .f32⟩
  | 5 => ⟨S131072x8, .f32⟩
  | 6 => ⟨S1x8, .f32⟩
  | 7 => ⟨S131072x8, .f32⟩
  | 8 => ⟨S131072x8, .f32⟩
  | 9 => ⟨S_, .f32⟩
  | 10 => ⟨S131072x8, .f32⟩
  | 11 => ⟨S131072x8, .f32⟩
  | 12 => ⟨S131072x1, .f32⟩
  | 13 => ⟨S1x1, .f32⟩
  | 14 => ⟨S131072x1, .f32⟩
  | 15 => ⟨S131072x1, .f32⟩
  | 16 => ⟨S_, .f32⟩
  | 17 => ⟨S64x1, .f32⟩
  | 18 => ⟨S131072x1, .i32⟩
  | 19 => ⟨S64x1, .f32⟩
  | 20 => ⟨S_, .f32⟩
  | 21 => ⟨S131072, .f32⟩
  | 22 => ⟨S_, .f32⟩
  | 23 => ⟨S64, .f32⟩
  | 24 => ⟨S131072x1, .i32⟩
  | 25 => ⟨S64, .f32⟩
  | 26 => ⟨S_, .f32⟩
  | 27 => ⟨S64, .f32⟩
  | 28 => ⟨S64, .f32⟩
  | 29 => ⟨S64x1, .f32⟩
  | 30 => ⟨S64x1, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_cst : Ref sig .tc := ⟨.hbm, 78, rfl⟩
abbrev main_call1_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call2_cst : Ref sig .tc := ⟨.hbm, 123, rfl⟩
abbrev main_call2_v0 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_call3_cst : Ref sig .tc := ⟨.hbm, 130, rfl⟩
abbrev main_call3_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call4_cst : Ref sig .tc := ⟨.hbm, 137, rfl⟩
abbrev main_call4_v0 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_16 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_17 : Ref sig .tc := ⟨.hbm, 148, rfl⟩
abbrev main_v106 : Ref sig .tc := ⟨.hbm, 149, rfl⟩
abbrev main_cst_18 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_19 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![520], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![520], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  concatenates_S8388608_S131072_S8519680_d0 : Shape.Concatenates [S8388608, S131072] S8519680 0
  bcast_S_S8519680 : S_.BroadcastsInDim S8519680 (![] : Fin 0 → Fin S8519680.rank)
  bcast_S_S131072 : S_.BroadcastsInDim S131072 (![] : Fin 0 → Fin S131072.rank)
  bcast_S8519680_S8519680x1_0 : S8519680.BroadcastsInDim S8519680x1 (![0] : Fin 1 → Fin S8519680x1.rank)
  shapeCasts_S131072x1_S131072 : S131072x1.ShapeCasts S131072
  shapeCasts_S8519680_S66560x128 : S8519680.ShapeCasts S66560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S66560x128_S8519680 : S66560x128.ShapeCasts S8519680
  bcast_S131072_S131072x1_0 : S131072.BroadcastsInDim S131072x1 (![0] : Fin 1 → Fin S131072x1.rank)
  bcast_S131072x1_S131072x16_0_1 : S131072x1.BroadcastsInDim S131072x16 (![0, 1] : Fin 2 → Fin S131072x16.rank)
  bcast_S1x16_S131072x16_0_1 : S1x16.BroadcastsInDim S131072x16 (![0, 1] : Fin 2 → Fin S131072x16.rank)
  bcast_S16_S1x16_1 : S16.BroadcastsInDim S1x16 (![1] : Fin 1 → Fin S1x16.rank)
  bcast_S_S131072x16 : S_.BroadcastsInDim S131072x16 (![] : Fin 0 → Fin S131072x16.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  bcast_S_S64x1 : S_.BroadcastsInDim S64x1 (![] : Fin 0 → Fin S64x1.rank)
  bcast_S_S64 : S_.BroadcastsInDim S64 (![] : Fin 0 → Fin S64.rank)
  bcast_S64_S64x1_0 : S64.BroadcastsInDim S64x1 (![0] : Fin 1 → Fin S64x1.rank)
  scatter_S131072_S8519680x1_S8519680_n_0_0_1_wf : ScatterDims.WF S131072 S8519680x1 S8519680 [] [0] [0] 1
  gather_S131072_S8519680x1_S8519680_n_0_n_n_0_1_1_wf : GatherDims.WF S131072 S8519680x1 S8519680 [] [0] [] [0] [] 1 ![1]
  dot_S131072x16_S16x1_S131072x1_1_0_0_1_n_n_wf : DotDims.WF S131072x16 S16x1 S131072x1 [1] [0] [0] [1] [] []
  dot_S131072x1_S1x16_S131072x16_1_0_0_1_n_n_wf : DotDims.WF S131072x1 S1x16 S131072x16 [1] [0] [0] [1] [] []
  dot_S131072x16_S16x8_S131072x8_1_0_0_1_n_n_wf : DotDims.WF S131072x16 S16x8 S131072x8 [1] [0] [0] [1] [] []
  dot_S131072x8_S8x1_S131072x1_1_0_0_1_n_n_wf : DotDims.WF S131072x8 S8x1 S131072x1 [1] [0] [0] [1] [] []
  scatter_S64x1_S131072x1_S131072x1_1_0_0_1_wf : ScatterDims.WF S64x1 S131072x1 S131072x1 [1] [0] [0] 1
  scatter_S64_S131072x1_S131072_n_0_0_1_wf : ScatterDims.WF S64 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S66560x128.size a
  hwx0_0 : ∀ i : grid0.Coords, EltTy.bits .f32 = 32 ∨ (Rect.block (s := S66560x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S66560x128.size a
  hwx0_1 : ∀ i : grid0.Coords, EltTy.bits .f32 = 32 ∨ (Rect.block (s := S66560x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S66560x128.size a
  hwx0_2 : ∀ i : grid0.Coords, EltTy.bits .f32 = 32 ∨ (Rect.block (s := S66560x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S66560x128.size a
  hwx0_3 : ∀ i : grid0.Coords, EltTy.bits .f32 = 32 ∨ (Rect.block (s := S66560x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S66560x128.size a
  hwx1_0 : ∀ i : grid1.Coords, EltTy.bits .f32 = 32 ∨ (Rect.block (s := S66560x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S66560x128.size a
  hwx1_1 : ∀ i : grid1.Coords, EltTy.bits .f32 = 32 ∨ (Rect.block (s := S66560x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S66560x128.size a
  hwx1_2 : ∀ i : grid1.Coords, EltTy.bits .f32 = 32 ∨ (Rect.block (s := S66560x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S66560x128.size a
  hwx1_3 : ∀ i : grid1.Coords, EltTy.bits .f32 = 32 ∨ (Rect.block (s := S66560x128) S128x128.size (cc1_transform_3 i) (hinb1_3 i)).WholeWords (EltTy.packing .f32)

variable [Facts₀]

def scatter_S131072_S8519680x1_S8519680_n_0_0_1 : ScatterDims S131072 S8519680x1 S8519680 where
  updateWindowDims := []
  insertedWindowDims := [0]
  scatterDimsToOperandDims := [0]
  indexVectorDim := 1
  wf := scatter_S131072_S8519680x1_S8519680_n_0_0_1_wf
def gather_S131072_S8519680x1_S8519680_n_0_n_n_0_1_1 : GatherDims S131072 S8519680x1 S8519680 where
  offsetDims := []
  collapsedSliceDims := [0]
  operandBatchingDims := []
  startIndicesBatchingDims := []
  startIndexMap := [0]
  indexVectorDim := 1
  sliceSizes := ![1]
  wf := gather_S131072_S8519680x1_S8519680_n_0_n_n_0_1_1_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf
def dot_S131072x1_S1x16_S131072x16_1_0_0_1_n_n : DotDims S131072x1 S1x16 S131072x16 where
  lhsContracting := [1]
  rhsContracting := [0]
  lhsNonContracting := [0]
  rhsNonContracting := [1]
  lhsBatch := []
  rhsBatch := []
  wf := dot_S131072x1_S1x16_S131072x16_1_0_0_1_n_n_wf
def dot_S131072x16_S16x8_S131072x8_1_0_0_1_n_n : DotDims S131072x16 S16x8 S131072x8 where
  lhsContracting := [1]
  rhsContracting := [0]
  lhsNonContracting := [0]
  rhsNonContracting := [1]
  lhsBatch := []
  rhsBatch := []
  wf := dot_S131072x16_S16x8_S131072x8_1_0_0_1_n_n_wf
def dot_S131072x8_S8x1_S131072x1_1_0_0_1_n_n : DotDims S131072x8 S8x1 S131072x1 where
  lhsContracting := [1]
  rhsContracting := [0]
  lhsNonContracting := [0]
  rhsNonContracting := [1]
  lhsBatch := []
  rhsBatch := []
  wf := dot_S131072x8_S8x1_S131072x1_1_0_0_1_n_n_wf
def scatter_S64x1_S131072x1_S131072x1_1_0_0_1 : ScatterDims S64x1 S131072x1 S131072x1 where
  updateWindowDims := [1]
  insertedWindowDims := [0]
  scatterDimsToOperandDims := [0]
  indexVectorDim := 1
  wf := scatter_S64x1_S131072x1_S131072x1_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf

abbrev win0_0 : Pipeline.Window sig grid0 :=
  Pipeline.Window.ofSpec (Memref.whole main_v37) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v78) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v79) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S131072x1 : Shape := ⟨2, ![131072, 1]⟩
abbrev S2x8388608 : Shape := ⟨2, ![2, 8388608]⟩
abbrev S131072 : Shape := ⟨1, ![131072]⟩
abbrev S1x16 : Shape := ⟨2, ![1, 16]⟩
abbrev S16 : Shape := ⟨1, ![16]⟩
abbrev S16x1 : Shape := ⟨2, ![16, 1]⟩
abbrev S1 : Shape := ⟨1, ![1]⟩
abbrev S16x8 : Shape := ⟨2, ![16, 8]⟩
abbrev S8 : Shape := ⟨1, ![8]⟩
abbrev S8x1 : Shape := ⟨2, ![8, 1]⟩
abbrev S1x8388608 : Shape := ⟨2, ![1, 8388608]⟩
abbrev S8388608 : Shape := ⟨1, ![8388608]⟩
abbrev S131072x16 : Shape := ⟨2, ![131072, 16]⟩
abbrev S8519680 : Shape := ⟨1, ![8519680]⟩
abbrev S_ : Shape := ⟨0, ![]⟩
abbrev S8519680x1 : Shape := ⟨2, ![8519680, 1]⟩
abbrev S8519680x16 : Shape := ⟨2, ![8519680, 16]⟩
abbrev S1x1 : Shape := ⟨2, ![1, 1]⟩
abbrev S131072x8 : Shape := ⟨2, ![131072, 8]⟩
abbrev S1x8 : Shape := ⟨2, ![1, 8]⟩
abbrev S64x1 : Shape := ⟨2, ![64, 1]⟩
abbrev S64 : Shape := ⟨1, ![64]⟩

abbrev nBuf : Space → Nat
  | .hbm => 167
  | .vmem => 0
  | .smem => 0
  | _ => 0

abbrev hbmTy0_0 (i : Nat) : BufTy := match i % 128 with
  | 0 => ⟨S131072x1, .f32⟩
  | 1 => ⟨S2x8388608, .i32⟩
  | 2 => ⟨S131072, .i32⟩
  | 3 => ⟨S1x16, .f32⟩
  | 4 => ⟨S16, .f32⟩
  | 5 => ⟨S16x1, .f32⟩
  | 6 => ⟨S1, .f32⟩
  | 7 => ⟨S1x16, .f32⟩
  | 8 => ⟨S16, .f32⟩
  | 9 => ⟨S16x8, .f32⟩
  | 10 => ⟨S8, .f32⟩
  | 11 => ⟨S8x1, .f32⟩
  | 12 => ⟨S1, .f32⟩
  | 13 => ⟨S1x8388608, .i32⟩
  | 14 => ⟨S8388608, .i32⟩
  | 15 => ⟨S1x8388608, .i32⟩
  | 16 => ⟨S8388608, .i32⟩
  | 17 => ⟨S131072x16, .f32⟩
  | 18 => ⟨S131072, .i32⟩
  | 19 => ⟨S8519680, .i32⟩
  | 20 => ⟨S8519680, .i32⟩
  | 21 => ⟨S_, .f32⟩
  | 22 => ⟨S8519680, .f32⟩
  | 23 => ⟨S_, .f32⟩
  | 24 => ⟨S131072, .f32⟩
  | 25 => ⟨S8519680x1, .i32⟩
  | 26 => ⟨S131072, .f32⟩
  | 27 => ⟨S_, .f32⟩
  | 28 => ⟨S131072, .f32⟩
  | 29 => ⟨S131072, .i1⟩
  | 30 => ⟨S131072, .f32⟩
  | 31 => ⟨S_, .f32⟩
  | 32 => ⟨S_, .f32⟩
  | 33 => ⟨S131072, .f32⟩
  | 34 => ⟨S131072, .f32⟩
  | 35 => ⟨S_, .i32⟩
  | 36 => ⟨S8519680, .i32⟩
  | 37 => ⟨S8519680, .i1⟩
  | 38 => ⟨S_, .i32⟩
  | 39 => ⟨S8519680, .i32⟩
  | 40 => ⟨S8519680, .i32⟩
  | 41 => ⟨S8519680, .i32⟩
  | 42 => ⟨S8519680x1, .i32⟩
  | 43 => ⟨S8519680, .f32⟩
  | 44 => ⟨S_, .i32⟩
  | 45 => ⟨S8519680, .i32⟩
  | 46 => ⟨S8519680, .i1⟩
  | 47 => ⟨S_, .i32⟩
  | 48 => ⟨S8519680, .i32⟩
  | 49 => ⟨S8519680, .i32⟩
  | 50 => ⟨S8519680, .i32⟩
  | 51 => ⟨S8519680x1, .i32⟩
  | 52 => ⟨S8519680, .f32⟩
  | 53 => ⟨S8519680, .f32⟩
  | 54 => ⟨S_, .i32⟩
  | 55 => ⟨S8519680, .i32⟩
  | 56 => ⟨S8519680, .i1⟩
  | 57 => ⟨S_, .i32⟩
  | 58 => ⟨S8519680, .i32⟩
  | 59 => ⟨S8519680, .i32⟩
  | 60 => ⟨S8519680, .i32⟩
  | 61 => ⟨S8519680x1, .i32⟩
  | 62 => ⟨S8519680x16, .f32⟩
  | 63 => ⟨S8519680x1, .f32⟩
  | 64 => ⟨S8519680x16, .f32⟩
  | 65 => ⟨S8519680x16, .f32⟩
  | 66 => ⟨S_, .f32⟩
  | 67 => ⟨S131072x16, .f32⟩
  | 68 => ⟨S8519680x1, .i32⟩
  | 69 => ⟨S131072x16, .f32⟩
  | 70 => ⟨S1x16, .f32⟩
  | 71 => ⟨S131072x16, .f32⟩
  | 72 => ⟨S131072x16, .f32⟩
  | 73 => ⟨S_, .f32⟩
  | 74 => ⟨S131072x16, .f32⟩
  | 75 => ⟨S131072x16, .f32⟩
  | 76 => ⟨S131072x1, .f32⟩
  | 77 => ⟨S131072, .i32⟩
  | 78 => ⟨S8519680, .i32⟩
  | 79 => ⟨S8519680, .i32⟩
  | 80 => ⟨S_, .f32⟩
  | 81 => ⟨S8519680, .f32⟩
  | 82 => ⟨S_, .f32⟩
  | 83 => ⟨S131072, .f32⟩
  | 84 => ⟨S8519680x1, .i32⟩
  | 85 => ⟨S131072, .f32⟩
  | 86 => ⟨S_, .f32⟩
  | 87 => ⟨S131072, .f32⟩
  | 88 => ⟨S131072, .i1⟩
  | 89 => ⟨S131072, .f32⟩
  | 90 => ⟨S_, .f32⟩
  | 91 => ⟨S_, .f32⟩
  | 92 => ⟨S131072, .f32⟩
  | 93 => ⟨S131072, .f32⟩
  | 94 => ⟨S_, .i32⟩
  | 95 => ⟨S8519680, .i32⟩
  | 96 => ⟨S8519680, .i1⟩
  | 97 => ⟨S_, .i32⟩
  | 98 => ⟨S8519680, .i32⟩
  | 99 => ⟨S8519680, .i32⟩
  | 100 => ⟨S8519680, .i32⟩
  | 101 => ⟨S8519680x1, .i32⟩
  | 102 => ⟨S8519680, .f32⟩
  | 103 => ⟨S_, .i32⟩
  | 104 => ⟨S8519680, .i32⟩
  | 105 => ⟨S8519680, .i1⟩
  | 106 => ⟨S_, .i32⟩
  | 107 => ⟨S8519680, .i32⟩
  | 108 => ⟨S8519680, .i32⟩
  | 109 => ⟨S8519680, .i32⟩
  | 110 => ⟨S8519680x1, .i32⟩
  | 111 => ⟨S8519680, .f32⟩
  | 112 => ⟨S8519680, .f32⟩
  | 113 => ⟨S_, .i32⟩
  | 114 => ⟨S8519680, .i32⟩
  | 115 => ⟨S8519680, .i1⟩
  | 116 => ⟨S_, .i32⟩
  | 117 => ⟨S8519680, .i32⟩
  | 118 => ⟨S8519680, .i32⟩
  | 119 => ⟨S8519680, .i32⟩
  | 120 => ⟨S8519680x1, .i32⟩
  | 121 => ⟨S8519680x1, .f32⟩
  | 122 => ⟨S8519680x1, .f32⟩
  | 123 => ⟨S8519680x1, .f32⟩
  | 124 => ⟨S_, .f32⟩
  | 125 => ⟨S131072x1, .f32⟩
  | 126 => ⟨S8519680x1, .i32⟩
  | 127 => ⟨S131072x1, .f32⟩
  | _ => ⟨S131072x1, .f32⟩

abbrev hbmTy0_1 (i : Nat) : BufTy := match i % 128 with
  | 0 => ⟨S1x1, .f32⟩
  | 1 => ⟨S131072x1, .f32⟩
  | 2 => ⟨S131072x1, .f32⟩
  | 3 => ⟨S_, .f32⟩
  | 4 => ⟨S131072x1, .f32⟩
  | 5 => ⟨S131072x1, .f32⟩
  | 6 => ⟨S131072x16, .f32⟩
  | 7 => ⟨S1x16, .f32⟩
  | 8 => ⟨S131072x16, .f32⟩
  | 9 => ⟨S131072x16, .f32⟩
  | 10 => ⟨S_, .f32⟩
  | 11 => ⟨S131072x16, .f32⟩
  | 12 => ⟨S131072x16, .f32⟩
  | 13 => ⟨S131072x8, .f32⟩
  | 14 => ⟨S1x8, .f32⟩
  | 15 => ⟨S131072x8, .f32⟩
  | 16 => ⟨S131072x8, .f32⟩
  | 17 => ⟨S_, .f32⟩
  | 18 => ⟨S131072x8, .f32⟩
  | 19 => ⟨S131072x8, .f32⟩
  | 20 => ⟨S131072x1, .f32⟩
  | 21 => ⟨S1x1, .f32⟩
  | 22 => ⟨S131072x1, .f32⟩
  | 23 => ⟨S131072x1, .f32⟩
  | 24 => ⟨S_, .f32⟩
  | 25 => ⟨S64x1, .f32⟩
  | 26 => ⟨S131072x1, .i32⟩
  | 27 => ⟨S64x1, .f32⟩
  | 28 => ⟨S_, .f32⟩
  | 29 => ⟨S131072, .f32⟩
  | 30 => ⟨S_, .f32⟩
  | 31 => ⟨S64, .f32⟩
  | 32 => ⟨S131072x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x1, .f32⟩
  | _ => ⟨S131072x1, .f32⟩

abbrev hbmTy (i : Nat) : BufTy := match i / 128 with
  | 0 => hbmTy0_0 i
  | 1 => hbmTy0_1 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_call3_cst : Ref sig .tc := ⟨.hbm, 131, rfl⟩
abbrev main_call3_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call4_cst : Ref sig .tc := ⟨.hbm, 138, rfl⟩
abbrev main_call4_v0 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call5_cst : Ref sig .tc := ⟨.hbm, 145, rfl⟩
abbrev main_call5_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_20 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_21 : Ref sig .tc := ⟨.hbm, 156, rfl⟩
abbrev main_v108 : Ref sig .tc := ⟨.hbm, 157, rfl⟩
abbrev main_cst_22 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_23 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  concatenates_S8388608_S131072_S8519680_d0 : Shape.Concatenates [S8388608, S131072] S8519680 0
  bcast_S_S8519680 : S_.BroadcastsInDim S8519680 (![] : Fin 0 → Fin S8519680.rank)
  bcast_S_S131072 : S_.BroadcastsInDim S131072 (![] : Fin 0 → Fin S131072.rank)
  bcast_S8519680_S8519680x1_0 : S8519680.BroadcastsInDim S8519680x1 (![0] : Fin 1 → Fin S8519680x1.rank)
  bcast_S8519680x1_S8519680x16_0_1 : S8519680x1.BroadcastsInDim S8519680x16 (![0, 1] : Fin 2 → Fin S8519680x16.rank)
  bcast_S_S131072x16 : S_.BroadcastsInDim S131072x16 (![] : Fin 0 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  bcast_S_S64x1 : S_.BroadcastsInDim S64x1 (![] : Fin 0 → Fin S64x1.rank)
  bcast_S131072_S131072x1_0 : S131072.BroadcastsInDim S131072x1 (![0] : Fin 1 → Fin S131072x1.rank)
  bcast_S_S64 : S_.BroadcastsInDim S64 (![] : Fin 0 → Fin S64.rank)
  bcast_S64_S64x1_0 : S64.BroadcastsInDim S64x1 (![0] : Fin 1 → Fin S64x1.rank)
  dot_S131072x1_S1x16_S131072x16_1_0_0_1_n_n_wf : DotDims.WF S131072x1 S1x16 S131072x16 [1] [0] [0] [1] [] []
  scatter_S131072_S8519680x1_S8519680_n_0_0_1_wf : ScatterDims.WF S131072 S8519680x1 S8519680 [] [0] [0] 1
  gather_S131072_S8519680x1_S8519680_n_0_n_n_0_1_1_wf : GatherDims.WF S131072 S8519680x1 S8519680 [] [0] [] [0] [] 1 ![1]
  gather_S131072x16_S8519680x1_S8519680x16_1_0_n_n_0_1_116_wf : GatherDims.WF S131072x16 S8519680x1 S8519680x16 [1] [0] [] [0] [] 1 ![1, 16]
  scatter_S131072x16_S8519680x1_S8519680x16_1_0_0_1_wf : ScatterDims.WF S131072x16 S8519680x1 S8519680x16 [1] [0] [0] 1
  dot_S131072x16_S16x1_S131072x1_1_0_0_1_n_n_wf : DotDims.WF S131072x16 S16x1 S131072x1 [1] [0] [0] [1] [] []
  gather_S131072x1_S8519680x1_S8519680x1_1_0_n_n_0_1_11_wf : GatherDims.WF S131072x1 S8519680x1 S8519680x1 [1] [0] [] [0] [] 1 ![1, 1]
  scatter_S131072x1_S8519680x1_S8519680x1_1_0_0_1_wf : ScatterDims.WF S131072x1 S8519680x1 S8519680x1 [1] [0] [0] 1
  dot_S131072x16_S16x8_S131072x8_1_0_0_1_n_n_wf : DotDims.WF S131072x16 S16x8 S131072x8 [1] [0] [0] [1] [] []
  dot_S131072x8_S8x1_S131072x1_1_0_0_1_n_n_wf : DotDims.WF S131072x8 S8x1 S131072x1 [1] [0] [0] [1] [] []
  scatter_S64x1_S131072x1_S131072x1_1_0_0_1_wf : ScatterDims.WF S64x1 S131072x1 S131072x1 [1] [0] [0] 1
  scatter_S64_S131072x1_S131072_n_0_0_1_wf : ScatterDims.WF S64 S131072x1 S131072 [] [0] [0] 1

variable [Facts₀]

def dot_S131072x1_S1x16_S131072x16_1_0_0_1_n_n : DotDims S131072x1 S1x16 S131072x16 where
  lhsContracting := [1]
  rhsContracting := [0]
  lhsNonContracting := [0]
  rhsNonContracting := [1]
  lhsBatch := []
  rhsBatch := []
  wf := dot_S131072x1_S1x16_S131072x16_1_0_0_1_n_n_wf
def scatter_S131072_S8519680x1_S8519680_n_0_0_1 : ScatterDims S131072 S8519680x1 S8519680 where
  updateWindowDims := []
  insertedWindowDims := [0]
  scatterDimsToOperandDims := [0]
  indexVectorDim := 1
  wf := scatter_S131072_S8519680x1_S8519680_n_0_0_1_wf
def gather_S131072_S8519680x1_S8519680_n_0_n_n_0_1_1 : GatherDims S131072 S8519680x1 S8519680 where
  offsetDims := []
  collapsedSliceDims := [0]
  operandBatchingDims := []
  startIndicesBatchingDims := []
  startIndexMap := [0]
  indexVectorDim := 1
  sliceSizes := ![1]
  wf := gather_S131072_S8519680x1_S8519680_n_0_n_n_0_1_1_wf
def gather_S131072x16_S8519680x1_S8519680x16_1_0_n_n_0_1_116 : GatherDims S131072x16 S8519680x1 S8519680x16 where
  offsetDims := [1]
  collapsedSliceDims := [0]
  operandBatchingDims := []
  startIndicesBatchingDims := []
  startIndexMap := [0]
  indexVectorDim := 1
  sliceSizes := ![1, 16]
  wf := gather_S131072x16_S8519680x1_S8519680x16_1_0_n_n_0_1_116_wf
def scatter_S131072x16_S8519680x1_S8519680x16_1_0_0_1 : ScatterDims S131072x16 S8519680x1 S8519680x16 where
  updateWindowDims := [1]
  insertedWindowDims := [0]
  scatterDimsToOperandDims := [0]
  indexVectorDim := 1
  wf := scatter_S131072x16_S8519680x1_S8519680x16_1_0_0_1_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf
def gather_S131072x1_S8519680x1_S8519680x1_1_0_n_n_0_1_11 : GatherDims S131072x1 S8519680x1 S8519680x1 where
  offsetDims := [1]
  collapsedSliceDims := [0]
  operandBatchingDims := []
  startIndicesBatchingDims := []
  startIndexMap := [0]
  indexVectorDim := 1
  sliceSizes := ![1, 1]
  wf := gather_S131072x1_S8519680x1_S8519680x1_1_0_n_n_0_1_11_wf
def scatter_S131072x1_S8519680x1_S8519680x1_1_0_0_1 : ScatterDims S131072x1 S8519680x1 S8519680x1 where
  updateWindowDims := [1]
  insertedWindowDims := [0]
  scatterDimsToOperandDims := [0]
  indexVectorDim := 1
  wf := scatter_S131072x1_S8519680x1_S8519680x1_1_0_0_1_wf
def dot_S131072x16_S16x8_S131072x8_1_0_0_1_n_n : DotDims S131072x16 S16x8 S131072x8 where
  lhsContracting := [1]
  rhsContracting := [0]
  lhsNonContracting := [0]
  rhsNonContracting := [1]
  lhsBatch := []
  rhsBatch := []
  wf := dot_S131072x16_S16x8_S131072x8_1_0_0_1_n_n_wf
def dot_S131072x8_S8x1_S131072x1_1_0_0_1_n_n : DotDims S131072x8 S8x1 S131072x1 where
  lhsContracting := [1]
  rhsContracting := [0]
  lhsNonContracting := [0]
  rhsNonContracting := [1]
  lhsBatch := []
  rhsBatch := []
  wf := dot_S131072x8_S8x1_S131072x1_1_0_0_1_n_n_wf
def scatter_S64x1_S131072x1_S131072x1_1_0_0_1 : ScatterDims S64x1 S131072x1 S131072x1 where
  updateWindowDims := [1]
  insertedWindowDims := [0]
  scatterDimsToOperandDims := [0]
  indexVectorDim := 1
  wf := scatter_S64x1_S131072x1_S131072x1_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf

class Facts : Prop extends Facts₀ where

variable [Facts]
-- ==== Proof.KLayers.lean ====
/-
  The kernel program's two convolutions as functions of what each pipelined product leaves.

  The first layer: flatten the product array, scatter-add it by destination into one scalar per node, spread the scalar
  over the 16 output channels, multiply by the weight row, add the bias, rectify.  The second layer: the same
  aggregation, written as a column, plus the bias, rectified.  `wrapB` is the index normalisation of `x[idx]`: a
  negative index has the axis length added; the result is written as a column of start indices.
-/
import proofs.«419158_j83760452206926_4_alg».proof.KernelIdeal
import proofs.«419158_j83760452206926_4_alg».proof.Proof.Gen.KernelIdeal

noncomputable section

namespace Cert.KernelIdeal.Bridge

open Idealize.ShloMosaic
open Cert.KernelIdeal Cert.KernelIdeal.Gen

variable {F : FTy → Type} [FloatOps F]

/-- `x[idx]`'s start indices: negative indices wrapped by the axis length 131072, as an [E, 1] column. -/
def wrapB (sI : IVec S8519680 32) : IVec S8519680x1 32 :=
  broadcastInDim S8519680x1 ![0] bcast_S8519680_S8519680x1_0
    (select (cmpi .slt sI (broadcastInDim S8519680 ![] bcast_S_S8519680 (constantI S_ 32 0#32)))
      (addi sI (broadcastInDim S8519680 ![] bcast_S_S8519680 (constantI S_ 32 131072#32))) sI)

/-- The per-node aggregate of a product array `r` by the destination indices `dI`. -/
def aggK (r : FVec F S66560x128 .f32) (dI : IVec S8519680 32) : FVec F S131072 .f32 :=
  Host.scatterAdd scatter_S131072_S8519680x1_S8519680_n_0_0_1
    (broadcastInDim S131072 ![] bcast_S_S131072 (constant S_ .f32 0x00000000#32))
    (broadcastInDim S8519680x1 ![0] bcast_S8519680_S8519680x1_0 dI)
    (shapeCast S8519680 r shapeCasts_S66560x128_S8519680)

/-- The first layer's output from the first product array. -/
def layer1K (r : FVec F S66560x128 .f32) (dI : IVec S8519680 32) (x3 : FVec F S1x16 .f32) (x4 : FVec F S16 .f32) :
    FVec F S131072x16 .f32 :=
  maximumf
    (addf
      (mulf
        (broadcastInDim S131072x16 ![0, 1] bcast_S131072x1_S131072x16_0_1
          (broadcastInDim S131072x1 ![0] bcast_S131072_S131072x1_0 (aggK r dI)))
        (broadcastInDim S131072x16 ![0, 1] bcast_S1x16_S131072x16_0_1 x3))
      (broadcastInDim S131072x16 ![0, 1] bcast_S1x16_S131072x16_0_1 (broadcastInDim S1x16 ![1] bcast_S16_S1x16_1 x4)))
    (broadcastInDim S131072x16 ![] bcast_S_S131072x16 (constant S_ .f32 0x00000000#32))

/-- The second layer's output from the second product array. -/
def layer2K (r : FVec F S66560x128 .f32) (dI : IVec S8519680 32) (x6 : FVec F S1 .f32) : FVec F S131072x1 .f32 :=
  maximumf
    (addf
      (broadcastInDim S131072x1 ![0] bcast_S131072_S131072x1_0 (aggK r dI))
      (broadcastInDim S131072x1 ![0, 1] bcast_S1x1_S131072x1_0_1 (broadcastInDim S1x1 ![1] bcast_S1_S1x1_1 x6)))
    (broadcastInDim S131072x1 ![] bcast_S_S131072x1 (constant S_ .f32 0x00000000#32))

end Cert.KernelIdeal.Bridge

end
-- ==== Proof.KHead.lean ====
/-
  The host operations before the first product, read back.

  From the launch memory the program slices the edge list into sources and destinations, appends the self loops,
  counts each node's incoming edges, forms the normaliser where(deg > 0, rsqrt(deg), 0), and gathers, per edge, the
  node feature at the source and the normaliser at the source and at the destination, each re-tiled [E] → [E/128, 128].
  Every one of these arrays is the same composition of the same operations that the reference applies to its own
  arguments, so each is stated as the reference's stage function of the kernel's argument arrays.
-/
import proofs.«419158_j83760452206926_4_alg».proof.Proof.Gen.KernelIdeal.Frame
import proofs.«419158_j83760452206926_4_alg».proof.Proof.RefRead

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The argument arrays at their literal types. -/
abbrev a0 (c : Dev nD) : FVec F S131072x1 .f32 := m ((c.tc : Thread nD τ).loc main_arg0)
abbrev a1 (c : Dev nD) : IVec S2x8388608 32 := m ((c.tc : Thread nD τ).loc main_arg1)
abbrev a2 (c : Dev nD) : IVec S131072 32 := m ((c.tc : Thread nD τ).loc main_arg2)
abbrev a3 (c : Dev nD) : FVec F S1x16 .f32 := m ((c.tc : Thread nD τ).loc main_arg3)
abbrev a4 (c : Dev nD) : FVec F S16 .f32 := m ((c.tc : Thread nD τ).loc main_arg4)
abbrev a5 (c : Dev nD) : FVec F S16x1 .f32 := m ((c.tc : Thread nD τ).loc main_arg5)
abbrev a6 (c : Dev nD) : FVec F S1 .f32 := m ((c.tc : Thread nD τ).loc main_arg6)
abbrev a7 (c : Dev nD) : FVec F S1x16 .f32 := m ((c.tc : Thread nD τ).loc main_arg7)
abbrev a8 (c : Dev nD) : FVec F S16 .f32 := m ((c.tc : Thread nD τ).loc main_arg8)
abbrev a9 (c : Dev nD) : FVec F S16x8 .f32 := m ((c.tc : Thread nD τ).loc main_arg9)
abbrev a10 (c : Dev nD) : FVec F S8 .f32 := m ((c.tc : Thread nD τ).loc main_arg10)
abbrev a11 (c : Dev nD) : FVec F S8x1 .f32 := m ((c.tc : Thread nD τ).loc main_arg11)
abbrev a12 (c : Dev nD) : FVec F S1 .f32 := m ((c.tc : Thread nD τ).loc main_arg12)

/-- Sources with self loops. -/
theorem head_v5 (c : Dev nD) :
    W3 m ρ c (Proc.devRef .tc main_v5) = Cert.ReferenceIdeal.ReadP.val_main_v6 (F := F) (a1 m c) := by
  dsimp only [W3, W2, W1, hostOps0, hostOps0_1, hostOps0_2]
  after_results_simp
  rfl

/-- Destinations with self loops. -/
theorem head_v6 (c : Dev nD) :
    W3 m ρ c (Proc.devRef .tc main_v6) = Cert.ReferenceIdeal.ReadP.val_main_v7 (F := F) (a1 m c) := by
  dsimp only [W3, W2, W1, hostOps0, hostOps0_1, hostOps0_2]
  after_results_simp
  rfl

/-- The degree normaliser. -/
theorem head_v14 (c : Dev nD) :
    W3 m ρ c (Proc.devRef .tc main_v14) = Cert.ReferenceIdeal.ReadP.val_main_v15 (F := F) (a1 m c) := by
  dsimp only [W3, W2, W1, hostOps0, hostOps0_1, hostOps0_2]
  after_results_simp
  rfl

/-- The node features at the sources, re-tiled. -/
theorem head_v37 (c : Dev nD) :
    W3 m ρ c (Proc.devRef .tc main_v37)
      = shapeCast S66560x128
          (Host.gather gather_S131072_S8519680x1_S8519680_n_0_n_n_0_1_1
            (shapeCast S131072 (a0 m c) shapeCasts_S131072x1_S131072)
            (Cert.ReferenceIdeal.ReadP.val_main_v36 (F := F) (a1 m c)))
          shapeCasts_S8519680_S66560x128 := by
  dsimp only [W3, W2, W1, hostOps0, hostOps0_1, hostOps0_2]
  after_results_simp
  rfl

/-- The normaliser at the sources, re-tiled. -/
theorem head_v38 (c : Dev nD) :
    W3 m ρ c (Proc.devRef .tc main_v38)
      = shapeCast S66560x128 (Cert.ReferenceIdeal.ReadP.val_main_v22 (F := F) (a1 m c)) shapeCasts_S8519680_S66560x128 := by
  dsimp only [W3, W2, W1, hostOps0, hostOps0_1, hostOps0_2]
  after_results_simp
  rfl

/-- The normaliser at the destinations, re-tiled. -/
theorem head_v39 (c : Dev nD) :
    W3 m ρ c (Proc.devRef .tc main_v39)
      = shapeCast S66560x128 (Cert.ReferenceIdeal.ReadP.val_main_v29 (F := F) (a1 m c)) shapeCasts_S8519680_S66560x128 := by
  dsimp only [W3, W2, W1, hostOps0, hostOps0_1, hostOps0_2]
  after_results_simp
  rfl

/-- The stretch writes no argument array. -/
theorem head_a3 (c : Dev nD) : W3 m ρ c (Proc.devRef .tc main_arg3) = a3 m c := by
  dsimp only [W3, W2, W1, hostOps0, hostOps0_1, hostOps0_2]
  after_results_simp
theorem head_a4 (c : Dev nD) : W3 m ρ c (Proc.devRef .tc main_arg4) = a4 m c := by
  dsimp only [W3, W2, W1, hostOps0, hostOps0_1, hostOps0_2]
  after_results_simp
theorem head_a5 (c : Dev nD) : W3 m ρ c (Proc.devRef .tc main_arg5) = a5 m c := by
  dsimp only [W3, W2, W1, hostOps0, hostOps0_1, hostOps0_2]
  after_results_simp

theorem head_a2 (c : Dev nD) : W3 m ρ c (Proc.devRef .tc main_arg2) = a2 m c := by
  dsimp only [W3, W2, W1, hostOps0, hostOps0_1, hostOps0_2]
  after_results_simp
theorem head_a6 (c : Dev nD) : W3 m ρ c (Proc.devRef .tc main_arg6) = a6 m c := by
  dsimp only [W3, W2, W1, hostOps0, hostOps0_1, hostOps0_2]
  after_results_simp
theorem head_a7 (c : Dev nD) : W3 m ρ c (Proc.devRef .tc main_arg7) = a7 m c := by
  dsimp only [W3, W2, W1, hostOps0, hostOps0_1, hostOps0_2]
  after_results_simp
theorem head_a8 (c : Dev nD) : W3 m ρ c (Proc.devRef .tc main_arg8) = a8 m c := by
  dsimp only [W3, W2, W1, hostOps0, hostOps0_1, hostOps0_2]
  after_results_simp
theorem head_a9 (c : Dev nD) : W3 m ρ c (Proc.devRef .tc main_arg9) = a9 m c := by
  dsimp only [W3, W2, W1, hostOps0, hostOps0_1, hostOps0_2]
  after_results_simp
theorem head_a10 (c : Dev nD) : W3 m ρ c (Proc.devRef .tc main_arg10) = a10 m c := by
  dsimp only [W3, W2, W1, hostOps0, hostOps0_1, hostOps0_2]
  after_results_simp
theorem head_a11 (c : Dev nD) : W3 m ρ c (Proc.devRef .tc main_arg11) = a11 m c := by
  dsimp only [W3, W2, W1, hostOps0, hostOps0_1, hostOps0_2]
  after_results_simp
theorem head_a12 (c : Dev nD) : W3 m ρ c (Proc.devRef .tc main_arg12) = a12 m c := by
  dsimp only [W3, W2, W1, hostOps0, hostOps0_1, hostOps0_2]
  after_results_simp

end Cert.KernelIdeal.Bridge

end
-- ==== Proof.KMid.lean ====
/-
  The host operations between the two products, read back.

  From what the first product leaves: the first layer's output (`layer1K`), its projection by the [16, 1] weight
  flattened to one scalar per node, and the three per-edge gathers for the second product — that scalar at the source,
  the normaliser at the source and at the destination — each re-tiled [E] → [E/128, 128].  Buffers this stretch only
  reads keep their contents.
-/
import proofs.«419158_j83760452206926_4_alg».proof.Proof.Gen.KernelIdeal.Frame
import proofs.«419158_j83760452206926_4_alg».proof.Proof.RefRead
import proofs.«419158_j83760452206926_4_alg».proof.Proof.KLayers
set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The contents the stretch starts from, at their literal types. -/
abbrev r0 (c : Dev nD) : FVec F S66560x128 .f32 := W4 m ρ c (Proc.devRef .tc main_v40)
abbrev s4 (c : Dev nD) : IVec S8519680 32 := W4 m ρ c (Proc.devRef .tc main_v5)
abbrev d4 (c : Dev nD) : IVec S8519680 32 := W4 m ρ c (Proc.devRef .tc main_v6)
abbrev n4 (c : Dev nD) : FVec F S131072 .f32 := W4 m ρ c (Proc.devRef .tc main_v14)
abbrev w4 (c : Dev nD) : FVec F S1x16 .f32 := W4 m ρ c (Proc.devRef .tc main_arg3)
abbrev b4 (c : Dev nD) : FVec F S16 .f32 := W4 m ρ c (Proc.devRef .tc main_arg4)
abbrev p4 (c : Dev nD) : FVec F S16x1 .f32 := W4 m ρ c (Proc.devRef .tc main_arg5)

/-- The projected first-layer output at the sources, re-tiled. -/
theorem mid_v76 (c : Dev nD) :
    W7 m ρ c (Proc.devRef .tc main_v76)
      = shapeCast S66560x128
          (Host.gather gather_S131072_S8519680x1_S8519680_n_0_n_n_0_1_1
            (shapeCast S131072
              (Host.dotGeneral dot_S131072x16_S16x1_S131072x1_1_0_0_1_n_n none
                (layer1K (r0 m ρ c) (d4 m ρ c) (w4 m ρ c) (b4 m ρ c)) (p4 m ρ c))
              shapeCasts_S131072x1_S131072)
            (wrapB (s4 m ρ c)))
          shapeCasts_S8519680_S66560x128 := by
  dsimp only [W7, W6, W5, hostOps1, hostOps1_1, hostOps1_2]
  after_results_simp
  rfl

/-- The normaliser at the sources, re-tiled. -/
theorem mid_v77 (c : Dev nD) :
    W7 m ρ c (Proc.devRef .tc main_v77)
      = shapeCast S66560x128
          (Host.gather gather_S131072_S8519680x1_S8519680_n_0_n_n_0_1_1 (n4 m ρ c) (wrapB (s4 m ρ c)))
          shapeCasts_S8519680_S66560x128 := by
  dsimp only [W7, W6, W5, hostOps1, hostOps1_1, hostOps1_2]
  after_results_simp
  rfl

/-- The normaliser at the destinations, re-tiled. -/
theorem mid_v78 (c : Dev nD) :
    W7 m ρ c (Proc.devRef .tc main_v78)
      = shapeCast S66560x128
          (Host.gather gather_S131072_S8519680x1_S8519680_n_0_n_n_0_1_1 (n4 m ρ c) (wrapB (d4 m ρ c)))
          shapeCasts_S8519680_S66560x128 := by
  dsimp only [W7, W6, W5, hostOps1, hostOps1_1, hostOps1_2]
  after_results_simp
  rfl

/-- The stretch does not write the destinations nor the arguments the tail reads. -/
theorem mid_keep_v6 (c : Dev nD) : W7 m ρ c (Proc.devRef .tc main_v6) = W4 m ρ c (Proc.devRef .tc main_v6) := by
  dsimp only [W7, W6, W5, hostOps1, hostOps1_1, hostOps1_2]
  after_results_simp
theorem mid_keep_a2 (c : Dev nD) : W7 m ρ c (Proc.devRef .tc main_arg2) = W4 m ρ c (Proc.devRef .tc main_arg2) := by
  dsimp only [W7, W6, W5, hostOps1, hostOps1_1, hostOps1_2]
  after_results_simp
theorem mid_keep_a6 (c : Dev nD) : W7 m ρ c (Proc.devRef .tc main_arg6) = W4 m ρ c (Proc.devRef .tc main_arg6) := by
  dsimp only [W7, W6, W5, hostOps1, hostOps1_1, hostOps1_2]
  after_results_simp
theorem mid_keep_a7 (c : Dev nD) : W7 m ρ c (Proc.devRef .tc main_arg7) = W4 m ρ c (Proc.devRef .tc main_arg7) := by
  dsimp only [W7, W6, W5, hostOps1, hostOps1_1, hostOps1_2]
  after_results_simp
theorem mid_keep_a8 (c : Dev nD) : W7 m ρ c (Proc.devRef .tc main_arg8) = W4 m ρ c (Proc.devRef .tc main_arg8) := by
  dsimp only [W7, W6, W5, hostOps1, hostOps1_1, hostOps1_2]
  after_results_simp
theorem mid_keep_a9 (c : Dev nD) : W7 m ρ c (Proc.devRef .tc main_arg9) = W4 m ρ c (Proc.devRef .tc main_arg9) := by
  dsimp only [W7, W6, W5, hostOps1, hostOps1_1, hostOps1_2]
  after_results_simp
theorem mid_keep_a10 (c : Dev nD) : W7 m ρ c (Proc.devRef .tc main_arg10) = W4 m ρ c (Proc.devRef .tc main_arg10) := by
  dsimp only [W7, W6, W5, hostOps1, hostOps1_1, hostOps1_2]
  after_results_simp
theorem mid_keep_a11 (c : Dev nD) : W7 m ρ c (Proc.devRef .tc main_arg11) = W4 m ρ c (Proc.devRef .tc main_arg11) := by
  dsimp only [W7, W6, W5, hostOps1, hostOps1_1, hostOps1_2]
  after_results_simp
theorem mid_keep_a12 (c : Dev nD) : W7 m ρ c (Proc.devRef .tc main_arg12) = W4 m ρ c (Proc.devRef .tc main_arg12) := by
  dsimp only [W7, W6, W5, hostOps1, hostOps1_1, hostOps1_2]
  after_results_simp

end Cert.KernelIdeal.Bridge

end
-- ==== Proof.RefFactor.lean ====
/-
  The reference's result as three stages.

  The reference applies a first graph convolution to the node features (its output, after the rectifier, is the stage
  the generated read-back names `val_main_v47`), a second convolution to that, and then a three-layer perceptron and a
  mean pool per graph.  Here the second convolution is written as a function of ANY first-layer output, and the
  perceptron-and-pool tail as a function of ANY second-layer output, so that the kernel's program, which computes the two
  convolutions differently and the tail identically, can be compared stage by stage.
-/
import proofs.«419158_j83760452206926_4_alg».proof.Proof.RefRead

noncomputable section

namespace Cert.ReferenceIdeal.Bridge

open Idealize.ShloMosaic
open Cert.ReferenceIdeal Cert.ReferenceIdeal.Gen Cert.ReferenceIdeal.ReadP

variable {F : FTy → Type} [FloatOps F]

/-- The second convolution and its rectifier, from a first-layer output `h1`: project by the [16, 1] weight, gather by
    source, scale by the two normalisers, scatter-add by destination, add the bias, rectify. -/
def layer2R (h1 : FVec F S131072x16 .f32) (x1 : IVec S2x8388608 32) (x5 : FVec F S16x1 .f32) (x6 : FVec F S1 .f32) :
    FVec F S131072x1 .f32 :=
  maximumf
    (addf
      (Host.scatterAdd scatter_S131072x1_S8519680x1_S8519680x1_1_0_0_1 (val_main_v84 (F := F)) (val_main_v85 (F := F) x1)
        (mulf
          (Host.gather gather_S131072x1_S8519680x1_S8519680x1_1_0_n_n_0_1_11
            (Host.dotGeneral dot_S131072x16_S16x1_S131072x1_1_0_0_1_n_n none h1 x5) (val_main_v80 (F := F) x1))
          (val_main_v82 (F := F) x1)))
      (val_main_v88 (F := F) x6))
    (val_main_call3_v0 (F := F))

/-- The perceptron and the mean pool, from a second-layer output `h2`. -/
def tailR (h2 : FVec F S131072x1 .f32) (x2 : IVec S131072 32) (x7 : FVec F S1x16 .f32) (x8 : FVec F S16 .f32)
    (x9 : FVec F S16x8 .f32) (x10 : FVec F S8 .f32) (x11 : FVec F S8x1 .f32) (x12 : FVec F S1 .f32) : FVec F S64x1 .f32 :=
  Host.divf
    (Host.scatterAdd scatter_S64x1_S131072x1_S131072x1_1_0_0_1 (val_main_v105 (F := F)) (val_main_v106 (F := F) x2)
      (addf
        (Host.dotGeneral dot_S131072x8_S8x1_S131072x1_1_0_0_1_n_n none
          (maximumf
            (addf
              (Host.dotGeneral dot_S131072x16_S16x8_S131072x8_1_0_0_1_n_n none
                (maximumf
                  (addf (Host.dotGeneral dot_S131072x1_S1x16_S131072x16_1_0_0_1_n_n none h2 x7) (val_main_v93 (F := F) x8))
                  (val_main_call4_v0 (F := F)))
                x9)
              (val_main_v98 (F := F) x10))
            (val_main_call5_v0 (F := F)))
          x11)
        (val_main_v103 (F := F) x12)))
    (val_main_v114 (F := F) x2)

variable (x0 : FVec F S131072x1 .f32) (x1 : IVec S2x8388608 32) (x2 : IVec S131072 32) (x3 : FVec F S1x16 .f32)
  (x4 : FVec F S16 .f32) (x5 : FVec F S16x1 .f32) (x6 : FVec F S1 .f32) (x7 : FVec F S1x16 .f32) (x8 : FVec F S16 .f32)
  (x9 : FVec F S16x8 .f32) (x10 : FVec F S8 .f32) (x11 : FVec F S8x1 .f32) (x12 : FVec F S1 .f32)

/-- The reference's second-layer output is `layer2R` of its first-layer output. -/
theorem v90_eq : val_main_v90 (F := F) x0 x1 x3 x4 x5 x6 = layer2R (val_main_v47 (F := F) x0 x1 x3 x4) x1 x5 x6 := by
  unfold val_main_v90 val_main_v89 val_main_v86 val_main_v83 val_main_v81 val_main_v48 layer2R
  rfl

/-- The reference's result is `tailR` of its second-layer output. -/
theorem v115_eq :
    val_main_v115 (F := F) x0 x1 x2 x3 x4 x5 x6 x7 x8 x9 x10 x11 x12
      = tailR (val_main_v90 (F := F) x0 x1 x3 x4 x5 x6) x2 x7 x8 x9 x10 x11 x12 := by
  unfold val_main_v115 val_main_v107 val_main_v104 val_main_v101 val_main_v100 val_main_v99 val_main_v96 val_main_v95
    val_main_v94 val_main_v91 tailR
  rfl

end Cert.ReferenceIdeal.Bridge

end
-- ==== Proof.KTail.lean ====
/-
  The host operations after the second product, read back.

  From what the second product leaves: the second layer's output (`layer2K`), then the three-layer perceptron and the
  mean pool per graph — the same operations, on the same weights, as the reference's tail (`tailR`).
-/
import proofs.«419158_j83760452206926_4_alg».proof.Proof.Gen.KernelIdeal.Frame
import proofs.«419158_j83760452206926_4_alg».proof.Proof.RefRead
import proofs.«419158_j83760452206926_4_alg».proof.Proof.KLayers
import proofs.«419158_j83760452206926_4_alg».proof.Proof.RefFactor
set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The contents the tail starts from, at their literal types. -/
abbrev r1 (c : Dev nD) : FVec F S66560x128 .f32 := W8 m ρ c (Proc.devRef .tc main_v79)
abbrev d8 (c : Dev nD) : IVec S8519680 32 := W8 m ρ c (Proc.devRef .tc main_v6)
abbrev t2 (c : Dev nD) : IVec S131072 32 := W8 m ρ c (Proc.devRef .tc main_arg2)
abbrev t6 (c : Dev nD) : FVec F S1 .f32 := W8 m ρ c (Proc.devRef .tc main_arg6)
abbrev t7 (c : Dev nD) : FVec F S1x16 .f32 := W8 m ρ c (Proc.devRef .tc main_arg7)
abbrev t8 (c : Dev nD) : FVec F S16 .f32 := W8 m ρ c (Proc.devRef .tc main_arg8)
abbrev t9 (c : Dev nD) : FVec F S16x8 .f32 := W8 m ρ c (Proc.devRef .tc main_arg9)
abbrev t10 (c : Dev nD) : FVec F S8 .f32 := W8 m ρ c (Proc.devRef .tc main_arg10)
abbrev t11 (c : Dev nD) : FVec F S8x1 .f32 := W8 m ρ c (Proc.devRef .tc main_arg11)
abbrev t12 (c : Dev nD) : FVec F S1 .f32 := W8 m ρ c (Proc.devRef .tc main_arg12)

/-- The program's result is the reference's tail of the kernel's second-layer output. -/
theorem tail_v113 (c : Dev nD) :
    W15 m ρ c (Proc.devRef .tc main_v113)
      = Cert.ReferenceIdeal.Bridge.tailR (F := F) (layer2K (r1 m ρ c) (d8 m ρ c) (t6 m ρ c))
          (t2 m ρ c) (t7 m ρ c) (t8 m ρ c) (t9 m ρ c) (t10 m ρ c) (t11 m ρ c) (t12 m ρ c) := by
  dsimp only [W15, W14, W13, W12, W11, W10, W9, hostOps2, hostOps2_1, hostOps2_2, hostOps2_3, hostOps2_4, hostOps2_5, hostOps2_6]
  after_results_simp
  rfl

end Cert.KernelIdeal.Bridge

end
-- ==== Proof.KRegion.lean ====
/-
  What each of the two pipelined products leaves in its result array.

  Each region multiplies three [66560, 128] arrays entry by entry, one [128, 128] block per grid point, 520 points,
  block t covering rows 128 t … 128 t + 127 of every operand and of the result.  So, whatever the buffers hold when
  the region is entered, the result array after the last write-back is the entrywise product (a · b) · c of the three
  operand arrays as entered.

  Per region: the body's arithmetic on three blocks is (x · y) · z; at point t all four windows sit at block (t, 0),
  so what point t writes back is block t of the whole-array product; row r of the result lies in the block of point
  r / 128, so the blocks cover the array, and the array ends holding the product.
-/
import proofs.«419158_j83760452206926_4_alg».proof.Proof.Gen.KernelIdeal.Frame
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- The three operand arrays of the first product, as the region finds them, at their literal type. -/
abbrev opA0 (c : Dev nD) : FVec F S66560x128 .f32 := V c main_v37
abbrev opB0 (c : Dev nD) : FVec F S66560x128 .f32 := V c main_v38
abbrev opC0 (c : Dev nD) : FVec F S66560x128 .f32 := V c main_v39

/-- The three operand arrays of the second product. -/
abbrev opA1 (c : Dev nD) : FVec F S66560x128 .f32 := V c main_v76
abbrev opB1 (c : Dev nD) : FVec F S66560x128 .f32 := V c main_v77
abbrev opC1 (c : Dev nD) : FVec F S66560x128 .f32 := V c main_v78

/-- The body loads and stores its whole [128, 128] buffers: offsets (0, 0). -/
theorem zero_offsets : (![0, 0] : Fin 2 → Nat) = fun _ => 0 := funext fun a => by fin_cases a <;> rfl

/-! ## The first product -/

/-- The body's arithmetic on three blocks is the entrywise product (x · y) · z. -/
theorem pay0_eq (x0 x1 x2 : Vec F S128x128 .f32) : k0_pay1 x0 x1 x2 = mulf (mulf x0 x1) x2 := by
  unfold k0_pay1
  simp only [shapeCast_self]

/-- At grid point t every window of the first product sits at block (t, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the entrywise product of the three operand arrays: each operand's block
    at t is read at the same rows and lanes as the result's block. -/
theorem flushed0_eq (c : Dev nD) (t : Fin cfg0.N) :
    (dat0 V c).flushed 3 t
      = ((cfg0.win 3).blk t).view.read (Elt F) (mulf (mulf (opA0 V c) (opB0 V c)) (opC0 V c)) := by
  show (cfg0.win 3).cut (grid0.coords t) ((dat0 V c).after 3 t) = _
  rw [after0_3]
  unfold out0_3
  rw [View.canon_unit_zero zero_offsets]
  simp only [View.ld_unit_zero (S := S128x128) zero_offsets]
  rw [pay0_eq]
  obtain ⟨a0, a1, b0, b1, c0, c1, o0, o1⟩ := blockIdx0 t
  funext j
  show FloatOps.mulf (FloatOps.mulf (V c main_v37 (((cfg0.win 0).blk t).view.emb j))
        (V c main_v38 (((cfg0.win 1).blk t).view.emb j))) (V c main_v39 (((cfg0.win 2).blk t).view.emb j))
    = FloatOps.mulf (FloatOps.mulf (V c main_v37 (((cfg0.win 3).blk t).view.emb j))
        (V c main_v38 (((cfg0.win 3).blk t).view.emb j))) (V c main_v39 (((cfg0.win 3).blk t).view.emb j))
  have hA : ((cfg0.win 0).blk t).view.emb j = ((cfg0.win 3).blk t).view.emb j := by
    funext a; apply Fin.ext
    match a with
    | ⟨0, _⟩ => show win0_0.index t (0 : Fin 2) * 128 + 1 * (j 0).val = win0_3.index t (0 : Fin 2) * 128 + 1 * (j 0).val; omega
    | ⟨1, _⟩ => show win0_0.index t (1 : Fin 2) * 128 + 1 * (j 1).val = win0_3.index t (1 : Fin 2) * 128 + 1 * (j 1).val; omega
  have hB : ((cfg0.win 1).blk t).view.emb j = ((cfg0.win 3).blk t).view.emb j := by
    funext a; apply Fin.ext
    match a with
    | ⟨0, _⟩ => show win0_1.index t (0 : Fin 2) * 128 + 1 * (j 0).val = win0_3.index t (0 : Fin 2) * 128 + 1 * (j 0).val; omega
    | ⟨1, _⟩ => show win0_1.index t (1 : Fin 2) * 128 + 1 * (j 1).val = win0_3.index t (1 : Fin 2) * 128 + 1 * (j 1).val; omega
  have hC : ((cfg0.win 2).blk t).view.emb j = ((cfg0.win 3).blk t).view.emb j := by
    funext a; apply Fin.ext
    match a with
    | ⟨0, _⟩ => show win0_2.index t (0 : Fin 2) * 128 + 1 * (j 0).val = win0_3.index t (0 : Fin 2) * 128 + 1 * (j 0).val; omega
    | ⟨1, _⟩ => show win0_2.index t (1 : Fin 2) * 128 + 1 * (j 1).val = win0_3.index t (1 : Fin 2) * 128 + 1 * (j 1).val; omega
  rw [hA, hB, hC]

/-- An index of the result array lies in point t's block iff, on each axis, its coordinate lies in the block's range. -/
theorem mem_blk0 (t : Fin cfg0.N) (i : S66560x128.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v40).slice (win0_3.rect t)).set ↔ _
  rw [View.set_slice_whole, Rect.mem_set_unit]
  exact Iff.rfl

/-- Every index of the result array lies in some point's block: row r belongs to point r / 128. -/
theorem covered0 (i : S66560x128.Idx) :
    ∃ t : Fin cfg0.N, (cfg0.win 3).flush t = true ∧ i ∈ ((cfg0.win 3).blk t).view.set := by
  have hi0 : (i 0).val < 66560 := (i 0).isLt
  have hi1 : (i 1).val < 128 := (i 1).isLt
  have hN : cfg0.N = 520 := N_0
  have ht : (i 0).val / 128 < cfg0.N := by rw [hN]; omega
  obtain ⟨-, -, -, -, -, -, o0, o1⟩ := blockIdx0 ⟨(i 0).val / 128, ht⟩
  refine ⟨⟨(i 0).val / 128, ht⟩, flush0_3 _, ?_⟩
  rw [mem_blk0]
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    rw [o0]; show (i 0).val / 128 * 128 ≤ (i 0).val ∧ (i 0).val < (i 0).val / 128 * 128 + 128; omega
  | ⟨1, _⟩ =>
    show win0_3.index ⟨(i 0).val / 128, ht⟩ (1 : Fin 2) * 128 ≤ (i 1).val
      ∧ (i 1).val < win0_3.index ⟨(i 0).val / 128, ht⟩ (1 : Fin 2) * 128 + 128
    rw [o1]; omega

/-- After its 520 points the first region's result array is (a · b) · c, entry by entry. -/
theorem region0_value (c : Dev nD) :
    (dat0 (F := F) V c).arrAt 3 cfg0.N = mulf (mulf (opA0 V c) (opB0 V c)) (opC0 V c) :=
  (dat0 V c).arrAt_eq_of_cover 3 (mulf (mulf (opA0 V c) (opB0 V c)) (opC0 V c))
    (fun t _ => flushed0_eq V c t) covered0

/-! ## The second product -/

/-- The body's arithmetic on three blocks is the entrywise product (x · y) · z. -/
theorem pay1_eq (x0 x1 x2 : Vec F S128x128 .f32) : k1_pay1 x0 x1 x2 = mulf (mulf x0 x1) x2 := by
  unfold k1_pay1
  simp only [shapeCast_self]

/-- At grid point t every window of the second product sits at block (t, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the entrywise product of the three operand arrays: each operand's block
    at t is read at the same rows and lanes as the result's block. -/
theorem flushed1_eq (c : Dev nD) (t : Fin cfg1.N) :
    (dat1 V c).flushed 3 t
      = ((cfg1.win 3).blk t).view.read (Elt F) (mulf (mulf (opA1 V c) (opB1 V c)) (opC1 V c)) := by
  show (cfg1.win 3).cut (grid1.coords t) ((dat1 V c).after 3 t) = _
  rw [after1_3]
  unfold out1_3
  rw [View.canon_unit_zero zero_offsets]
  simp only [View.ld_unit_zero (S := S128x128) zero_offsets]
  rw [pay1_eq]
  obtain ⟨a0, a1, b0, b1, c0, c1, o0, o1⟩ := blockIdx1 t
  funext j
  show FloatOps.mulf (FloatOps.mulf (V c main_v76 (((cfg1.win 0).blk t).view.emb j))
        (V c main_v77 (((cfg1.win 1).blk t).view.emb j))) (V c main_v78 (((cfg1.win 2).blk t).view.emb j))
    = FloatOps.mulf (FloatOps.mulf (V c main_v76 (((cfg1.win 3).blk t).view.emb j))
        (V c main_v77 (((cfg1.win 3).blk t).view.emb j))) (V c main_v78 (((cfg1.win 3).blk t).view.emb j))
  have hA : ((cfg1.win 0).blk t).view.emb j = ((cfg1.win 3).blk t).view.emb j := by
    funext a; apply Fin.ext
    match a with
    | ⟨0, _⟩ => show win1_0.index t (0 : Fin 2) * 128 + 1 * (j 0).val = win1_3.index t (0 : Fin 2) * 128 + 1 * (j 0).val; omega
    | ⟨1, _⟩ => show win1_0.index t (1 : Fin 2) * 128 + 1 * (j 1).val = win1_3.index t (1 : Fin 2) * 128 + 1 * (j 1).val; omega
  have hB : ((cfg1.win 1).blk t).view.emb j = ((cfg1.win 3).blk t).view.emb j := by
    funext a; apply Fin.ext
    match a with
    | ⟨0, _⟩ => show win1_1.index t (0 : Fin 2) * 128 + 1 * (j 0).val = win1_3.index t (0 : Fin 2) * 128 + 1 * (j 0).val; omega
    | ⟨1, _⟩ => show win1_1.index t (1 : Fin 2) * 128 + 1 * (j 1).val = win1_3.index t (1 : Fin 2) * 128 + 1 * (j 1).val; omega
  have hC : ((cfg1.win 2).blk t).view.emb j = ((cfg1.win 3).blk t).view.emb j := by
    funext a; apply Fin.ext
    match a with
    | ⟨0, _⟩ => show win1_2.index t (0 : Fin 2) * 128 + 1 * (j 0).val = win1_3.index t (0 : Fin 2) * 128 + 1 * (j 0).val; omega
    | ⟨1, _⟩ => show win1_2.index t (1 : Fin 2) * 128 + 1 * (j 1).val = win1_3.index t (1 : Fin 2) * 128 + 1 * (j 1).val; omega
  rw [hA, hB, hC]

/-- An index of the result array lies in point t's block iff, on each axis, its coordinate lies in the block's range. -/
theorem mem_blk1 (t : Fin cfg1.N) (i : S66560x128.Idx) :
    i ∈ ((cfg1.win 3).blk t).view.set ↔ ∀ a : Fin 2, win1_3.index t a * S128x128.size a ≤ (i a).val
      ∧ (i a).val < win1_3.index t a * S128x128.size a + S128x128.size a := by
  show i ∈ ((View.whole main_v79).slice (win1_3.rect t)).set ↔ _
  rw [View.set_slice_whole, Rect.mem_set_unit]
  exact Iff.rfl

/-- Every index of the result array lies in some point's block: row r belongs to point r / 128. -/
theorem covered1 (i : S66560x128.Idx) :
    ∃ t : Fin cfg1.N, (cfg1.win 3).flush t = true ∧ i ∈ ((cfg1.win 3).blk t).view.set := by
  have hi0 : (i 0).val < 66560 := (i 0).isLt
  have hi1 : (i 1).val < 128 := (i 1).isLt
  have hN : cfg1.N = 520 := N_1
  have ht : (i 0).val / 128 < cfg1.N := by rw [hN]; omega
  obtain ⟨-, -, -, -, -, -, o0, o1⟩ := blockIdx1 ⟨(i 0).val / 128, ht⟩
  refine ⟨⟨(i 0).val / 128, ht⟩, flush1_3 _, ?_⟩
  rw [mem_blk1]
  intro a
  match a with
  | ⟨0, _⟩ =>
    show win1_3.index ⟨(i 0).val / 128, ht⟩ (0 : Fin 2) * 128 ≤ (i 0).val
      ∧ (i 0).val < win1_3.index ⟨(i 0).val / 128, ht⟩ (0 : Fin 2) * 128 + 128
    rw [o0]; show (i 0).val / 128 * 128 ≤ (i 0).val ∧ (i 0).val < (i 0).val / 128 * 128 + 128; omega
  | ⟨1, _⟩ =>
    show win1_3.index ⟨(i 0).val / 128, ht⟩ (1 : Fin 2) * 128 ≤ (i 1).val
      ∧ (i 1).val < win1_3.index ⟨(i 0).val / 128, ht⟩ (1 : Fin 2) * 128 + 128
    rw [o1]; omega

/-- After its 520 points the second region's result array is (a · b) · c, entry by entry. -/
theorem region1_value (c : Dev nD) :
    (dat1 (F := F) V c).arrAt 3 cfg1.N = mulf (mulf (opA1 V c) (opB1 V c)) (opC1 V c) :=
  (dat1 V c).arrAt_eq_of_cover 3 (mulf (mulf (opA1 V c) (opB1 V c)) (opC1 V c))
    (fun t _ => flushed1_eq V c t) covered1

end Cert.KernelIdeal.Bridge

end
-- ==== Proof.KChain.lean ====
/-
  The kernel program's boundary contents threaded together.

  What the first product leaves is the entrywise product of the three gathered arrays the head stretch prepared; the
  buffers the middle stretch reads are those the head stretch wrote (a region writes only its result array); what the
  second product leaves is the product of the three arrays the middle stretch prepared; and the buffers the tail reads
  are the destinations of the head stretch and the argument arrays, untouched since the launch.
-/
import proofs.«419158_j83760452206926_4_alg».proof.Proof.Gen.KernelIdeal.Frame
import proofs.«419158_j83760452206926_4_alg».proof.Proof.RefRead
import proofs.«419158_j83760452206926_4_alg».proof.Proof.KLayers
import proofs.«419158_j83760452206926_4_alg».proof.Proof.KHead
import proofs.«419158_j83760452206926_4_alg».proof.Proof.KMid
import proofs.«419158_j83760452206926_4_alg».proof.Proof.KTail
import proofs.«419158_j83760452206926_4_alg».proof.Proof.KRegion
set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- What the first product leaves. -/
theorem chain_r0 (c : Dev nD) :
    r0 m ρ c
      = mulf
          (mulf
            (shapeCast S66560x128
              (Host.gather gather_S131072_S8519680x1_S8519680_n_0_n_n_0_1_1
                (shapeCast S131072 (a0 m c) shapeCasts_S131072x1_S131072)
                (Cert.ReferenceIdeal.ReadP.val_main_v36 (F := F) (a1 m c)))
              shapeCasts_S8519680_S66560x128)
            (shapeCast S66560x128 (Cert.ReferenceIdeal.ReadP.val_main_v22 (F := F) (a1 m c)) shapeCasts_S8519680_S66560x128))
          (shapeCast S66560x128 (Cert.ReferenceIdeal.ReadP.val_main_v29 (F := F) (a1 m c)) shapeCasts_S8519680_S66560x128) := by
  have h := (W4_arr m ρ c 3).trans (region0_value (V3 m ρ) c)
  rw [← head_v37 m ρ c, ← head_v38 m ρ c, ← head_v39 m ρ c]
  exact h

theorem chain_s4 (c : Dev nD) : s4 m ρ c = Cert.ReferenceIdeal.ReadP.val_main_v6 (F := F) (a1 m c) :=
  (W4_of_ne m ρ c main_v5 (by decide)).trans (head_v5 m ρ c)
theorem chain_d4 (c : Dev nD) : d4 m ρ c = Cert.ReferenceIdeal.ReadP.val_main_v7 (F := F) (a1 m c) :=
  (W4_of_ne m ρ c main_v6 (by decide)).trans (head_v6 m ρ c)
theorem chain_n4 (c : Dev nD) : n4 m ρ c = Cert.ReferenceIdeal.ReadP.val_main_v15 (F := F) (a1 m c) :=
  (W4_of_ne m ρ c main_v14 (by decide)).trans (head_v14 m ρ c)
theorem chain_w4 (c : Dev nD) : w4 m ρ c = a3 m c := (W4_of_ne m ρ c main_arg3 (by decide)).trans (head_a3 m ρ c)
theorem chain_b4 (c : Dev nD) : b4 m ρ c = a4 m c := (W4_of_ne m ρ c main_arg4 (by decide)).trans (head_a4 m ρ c)
theorem chain_p4 (c : Dev nD) : p4 m ρ c = a5 m c := (W4_of_ne m ρ c main_arg5 (by decide)).trans (head_a5 m ρ c)

/-- What the second product leaves, over the middle stretch's starting contents. -/
theorem chain_r1 (c : Dev nD) :
    r1 m ρ c
      = mulf
          (mulf
            (shapeCast S66560x128
              (Host.gather gather_S131072_S8519680x1_S8519680_n_0_n_n_0_1_1
                (shapeCast S131072
                  (Host.dotGeneral dot_S131072x16_S16x1_S131072x1_1_0_0_1_n_n none
                    (layer1K (r0 m ρ c) (d4 m ρ c) (w4 m ρ c) (b4 m ρ c)) (p4 m ρ c))
                  shapeCasts_S131072x1_S131072)
                (wrapB (s4 m ρ c)))
              shapeCasts_S8519680_S66560x128)
            (shapeCast S66560x128
              (Host.gather gather_S131072_S8519680x1_S8519680_n_0_n_n_0_1_1 (n4 m ρ c) (wrapB (s4 m ρ c)))
              shapeCasts_S8519680_S66560x128))
          (shapeCast S66560x128
            (Host.gather gather_S131072_S8519680x1_S8519680_n_0_n_n_0_1_1 (n4 m ρ c) (wrapB (d4 m ρ c)))
            shapeCasts_S8519680_S66560x128) := by
  have h := (W8_arr m ρ c 3).trans (region1_value (V7 m ρ) c)
  rw [← mid_v76 m ρ c, ← mid_v77 m ρ c, ← mid_v78 m ρ c]
  exact h

/-- The destinations the tail reads are the head stretch's. -/
theorem chain_d8 (c : Dev nD) : d8 m ρ c = Cert.ReferenceIdeal.ReadP.val_main_v7 (F := F) (a1 m c) :=
  (W8_of_ne m ρ c main_v6 (by decide)).trans ((mid_keep_v6 m ρ c).trans (chain_d4 m ρ c))
theorem chain_t2 (c : Dev nD) : t2 m ρ c = a2 m c :=
  (W8_of_ne m ρ c main_arg2 (by decide)).trans ((mid_keep_a2 m ρ c).trans ((W4_of_ne m ρ c main_arg2 (by decide)).trans (head_a2 m ρ c)))
theorem chain_t6 (c : Dev nD) : t6 m ρ c = a6 m c :=
  (W8_of_ne m ρ c main_arg6 (by decide)).trans ((mid_keep_a6 m ρ c).trans ((W4_of_ne m ρ c main_arg6 (by decide)).trans (head_a6 m ρ c)))
theorem chain_t7 (c : Dev nD) : t7 m ρ c = a7 m c :=
  (W8_of_ne m ρ c main_arg7 (by decide)).trans ((mid_keep_a7 m ρ c).trans ((W4_of_ne m ρ c main_arg7 (by decide)).trans (head_a7 m ρ c)))
theorem chain_t8 (c : Dev nD) : t8 m ρ c = a8 m c :=
  (W8_of_ne m ρ c main_arg8 (by decide)).trans ((mid_keep_a8 m ρ c).trans ((W4_of_ne m ρ c main_arg8 (by decide)).trans (head_a8 m ρ c)))
theorem chain_t9 (c : Dev nD) : t9 m ρ c = a9 m c :=
  (W8_of_ne m ρ c main_arg9 (by decide)).trans ((mid_keep_a9 m ρ c).trans ((W4_of_ne m ρ c main_arg9 (by decide)).trans (head_a9 m ρ c)))
theorem chain_t10 (c : Dev nD) : t10 m ρ c = a10 m c :=
  (W8_of_ne m ρ c main_arg10 (by decide)).trans ((mid_keep_a10 m ρ c).trans ((W4_of_ne m ρ c main_arg10 (by decide)).trans (head_a10 m ρ c)))
theorem chain_t11 (c : Dev nD) : t11 m ρ c = a11 m c :=
  (W8_of_ne m ρ c main_arg11 (by decide)).trans ((mid_keep_a11 m ρ c).trans ((W4_of_ne m ρ c main_arg11 (by decide)).trans (head_a11 m ρ c)))
theorem chain_t12 (c : Dev nD) : t12 m ρ c = a12 m c :=
  (W8_of_ne m ρ c main_arg12 (by decide)).trans ((mid_keep_a12 m ρ c).trans ((W4_of_ne m ρ c main_arg12 (by decide)).trans (head_a12 m ρ c)))

end Cert.KernelIdeal.Bridge

end
-- ==== Proof.KGlue.lean ====
/-
  The two aggregation laws named, and each program's layer written over them.

  `l1R` / `l1K` are the two sides of the first layer's law (project-then-aggregate; aggregate-then-project), `l2R` /
  `l2K` the two sides of the second layer's, as functions of the table, the index columns and the two scale arrays, at
  any float family.  Each program's layer output is, by unfolding its definitions, the bias and rectifier applied to one
  of these.
-/
import proofs.«419158_j83760452206926_4_alg».proof.Proof.Gen.KernelIdeal.Frame
import proofs.«419158_j83760452206926_4_alg».proof.Proof.RefRead
import proofs.«419158_j83760452206926_4_alg».proof.Proof.KLayers
import proofs.«419158_j83760452206926_4_alg».proof.Proof.RefFactor
set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable {F : FTy → Type} [FloatOps F]
open Cert.ReferenceIdeal.ReadP Cert.ReferenceIdeal.Bridge

/-- The first layer's aggregate, scalar first: aggregate x[s] · a · b per node, then multiply by the weight row. -/
def l1K (x : FVec F S131072x1 .f32) (W : FVec F S1x16 .f32) (sW dB : IVec S8519680x1 32) (ds dd : FVec F S8519680 .f32) :
    FVec F S131072x16 .f32 :=
  mulf
    (broadcastInDim S131072x16 ![0, 1] bcast_S131072x1_S131072x16_0_1
      (broadcastInDim S131072x1 ![0] bcast_S131072_S131072x1_0
        (Host.scatterAdd scatter_S131072_S8519680x1_S8519680_n_0_0_1
          (broadcastInDim S131072 ![] bcast_S_S131072 (constant S_ .f32 0x00000000#32))
          dB
          (shapeCast S8519680
            (mulf (mulf
                (shapeCast S66560x128
                  (Host.gather gather_S131072_S8519680x1_S8519680_n_0_n_n_0_1_1 (shapeCast S131072 x shapeCasts_S131072x1_S131072) sW)
                  shapeCasts_S8519680_S66560x128)
                (shapeCast S66560x128 ds shapeCasts_S8519680_S66560x128))
              (shapeCast S66560x128 dd shapeCasts_S8519680_S66560x128))
            shapeCasts_S66560x128_S8519680))))
    (broadcastInDim S131072x16 ![0, 1] bcast_S1x16_S131072x16_0_1 W)

/-- The first layer's aggregate, table first: gather rows of x W, scale by a · b, scatter-add. -/
def l1R (x : FVec F S131072x1 .f32) (W : FVec F S1x16 .f32) (sW dB : IVec S8519680x1 32) (ds dd : FVec F S8519680 .f32) :
    FVec F S131072x16 .f32 :=
  Host.scatterAdd Cert.ReferenceIdeal.scatter_S131072x16_S8519680x1_S8519680x16_1_0_0_1
    (broadcastInDim Cert.ReferenceIdeal.S131072x16 ![] Cert.ReferenceIdeal.Facts₀.bcast_S_S131072x16 (constant Cert.ReferenceIdeal.S_ .f32 0x00000000#32))
    dB
    (mulf (Host.gather Cert.ReferenceIdeal.gather_S131072x16_S8519680x1_S8519680x16_1_0_n_n_0_1_116
        (Host.dotGeneral Cert.ReferenceIdeal.dot_S131072x1_S1x16_S131072x16_1_0_0_1_n_n none x W) sW)
      (broadcastInDim Cert.ReferenceIdeal.S8519680x16 ![0, 1] Cert.ReferenceIdeal.Facts₀.bcast_S8519680x1_S8519680x16_0_1
        (broadcastInDim Cert.ReferenceIdeal.S8519680x1 ![0] Cert.ReferenceIdeal.Facts₀.bcast_S8519680_S8519680x1_0 (mulf ds dd))))

/-- The second layer's aggregate over the flattened, re-tiled product, written back as a column. -/
def l2K (tbl : FVec F S131072x1 .f32) (sW dB : IVec S8519680x1 32) (ds dd : FVec F S8519680 .f32) : FVec F S131072x1 .f32 :=
  broadcastInDim S131072x1 ![0] bcast_S131072_S131072x1_0
    (Host.scatterAdd scatter_S131072_S8519680x1_S8519680_n_0_0_1
          (broadcastInDim S131072 ![] bcast_S_S131072 (constant S_ .f32 0x00000000#32))
          dB
          (shapeCast S8519680
            (mulf (mulf
                (shapeCast S66560x128
                  (Host.gather gather_S131072_S8519680x1_S8519680_n_0_n_n_0_1_1 (shapeCast S131072 tbl shapeCasts_S131072x1_S131072) sW)
                  shapeCasts_S8519680_S66560x128)
                (shapeCast S66560x128 ds shapeCasts_S8519680_S66560x128))
              (shapeCast S66560x128 dd shapeCasts_S8519680_S66560x128))
            shapeCasts_S66560x128_S8519680))

/-- The second layer's aggregate over [E, 1] rows. -/
def l2R (tbl : FVec F S131072x1 .f32) (sW dB : IVec S8519680x1 32) (ds dd : FVec F S8519680 .f32) : FVec F S131072x1 .f32 :=
  Host.scatterAdd Cert.ReferenceIdeal.scatter_S131072x1_S8519680x1_S8519680x1_1_0_0_1
    (broadcastInDim Cert.ReferenceIdeal.S131072x1 ![] Cert.ReferenceIdeal.Facts₀.bcast_S_S131072x1 (constant Cert.ReferenceIdeal.S_ .f32 0x00000000#32))
    dB
    (mulf (Host.gather Cert.ReferenceIdeal.gather_S131072x1_S8519680x1_S8519680x1_1_0_n_n_0_1_11 tbl sW)
      (broadcastInDim Cert.ReferenceIdeal.S8519680x1 ![0] Cert.ReferenceIdeal.Facts₀.bcast_S8519680_S8519680x1_0 (mulf ds dd)))

variable (x0 : FVec F S131072x1 .f32) (x1 : IVec S2x8388608 32) (x3 : FVec F S1x16 .f32) (x4 : FVec F S16 .f32)
  (x5 : FVec F S16x1 .f32) (x6 : FVec F S1 .f32) (h1 : FVec F S131072x16 .f32)

/-- The kernel program's first layer over the first product is bias and rectifier on `l1K`. -/
theorem glue1K :
    layer1K (mulf
          (mulf
            (shapeCast S66560x128
              (Host.gather gather_S131072_S8519680x1_S8519680_n_0_n_n_0_1_1
                (shapeCast S131072 x0 shapeCasts_S131072x1_S131072)
                (val_main_v36 (F := F) x1))
              shapeCasts_S8519680_S66560x128)
            (shapeCast S66560x128 (val_main_v22 (F := F) x1) shapeCasts_S8519680_S66560x128))
          (shapeCast S66560x128 (val_main_v29 (F := F) x1) shapeCasts_S8519680_S66560x128)) (val_main_v7 (F := F) x1) x3 x4
      = maximumf
          (addf (l1K x0 x3 (val_main_v36 (F := F) x1) (val_main_v42 (F := F) x1) (val_main_v22 (F := F) x1) (val_main_v29 (F := F) x1))
            (val_main_v45 (F := F) x4))
          (val_main_call1_v0 (F := F)) := rfl

/-- The reference's first layer is bias and rectifier on `l1R`. -/
theorem glue1R :
    val_main_v47 (F := F) x0 x1 x3 x4
      = maximumf
          (addf (l1R x0 x3 (val_main_v36 (F := F) x1) (val_main_v42 (F := F) x1) (val_main_v22 (F := F) x1) (val_main_v29 (F := F) x1))
            (val_main_v45 (F := F) x4))
          (val_main_call1_v0 (F := F)) := rfl

/-- The kernel program's second layer over the second product is bias and rectifier on `l2K`. -/
theorem glue2K :
    layer2K (mulf
          (mulf
            (shapeCast S66560x128
              (Host.gather gather_S131072_S8519680x1_S8519680_n_0_n_n_0_1_1
                (shapeCast S131072
                  (Host.dotGeneral dot_S131072x16_S16x1_S131072x1_1_0_0_1_n_n none h1 x5)
                  shapeCasts_S131072x1_S131072)
                (wrapB (val_main_v6 (F := F) x1)))
              shapeCasts_S8519680_S66560x128)
            (shapeCast S66560x128
              (Host.gather gather_S131072_S8519680x1_S8519680_n_0_n_n_0_1_1 (val_main_v15 (F := F) x1)
                (wrapB (val_main_v6 (F := F) x1)))
              shapeCasts_S8519680_S66560x128))
          (shapeCast S66560x128
            (Host.gather gather_S131072_S8519680x1_S8519680_n_0_n_n_0_1_1 (val_main_v15 (F := F) x1)
              (wrapB (val_main_v7 (F := F) x1)))
            shapeCasts_S8519680_S66560x128)) (val_main_v7 (F := F) x1) x6
      = maximumf
          (addf
            (l2K (Host.dotGeneral Cert.ReferenceIdeal.dot_S131072x16_S16x1_S131072x1_1_0_0_1_n_n none h1 x5)
              (val_main_v80 (F := F) x1) (val_main_v85 (F := F) x1) (val_main_v66 (F := F) x1) (val_main_v73 (F := F) x1))
            (val_main_v88 (F := F) x6))
          (val_main_call3_v0 (F := F)) := rfl

/-- The reference's second layer is bias and rectifier on `l2R`. -/
theorem glue2R :
    layer2R h1 x1 x5 x6
      = maximumf
          (addf
            (l2R (Host.dotGeneral Cert.ReferenceIdeal.dot_S131072x16_S16x1_S131072x1_1_0_0_1_n_n none h1 x5)
              (val_main_v80 (F := F) x1) (val_main_v85 (F := F) x1) (val_main_v66 (F := F) x1) (val_main_v73 (F := F) x1))
            (val_main_v88 (F := F) x6))
          (val_main_call3_v0 (F := F)) := rfl

end Cert.KernelIdeal.Bridge

end
-- ==== Proof.LibRowScatter.lean ====
/-
  Row scatter-adds and a row gather read at an entry.

  `segment_sum(v, ids)` and `x.at[ids].add(v)` along the LEADING axis lower to `stablehlo.scatter` with an `add` body, the
  scatter indices reshaped to `[R, 1]` (index vector on axis 1), the leading operand axis inserted and named by the
  index map, every other operand axis a window axis taken whole.  Update row `r` lands on operand row `ids[r, 0]`, read
  as a SIGNED integer and NOT clamped: a row whose index is negative or ≥ N is dropped.  So entry `n` (or `(n, b)`) of the
  result is the operand's entry plus the sum of the update entries of the rows `r` with `ids[r, 0] = n`.
  `x[ids]` for a rank-one operand lowers to `stablehlo.gather` with the same `[R, 1]` start indices: result entry `r` is
  operand entry `ids[r, 0]` read signed and clamped into `[0, N − 1]`.
-/
import Idealize.ShloMosaic.Lib.ValueIdx
import Idealize.ShloMosaic.PureOps.Ideal
import Idealize.ShloMosaic.PureOps.Ideal.Laws
import Idealize.ShloMosaic.PureOps.Contract

noncomputable section

namespace Cert.LibRowScatter

open Idealize.ShloMosaic Idealize.ShloMosaic.ValueIdx
open scoped BigOperators

/-- The dimension numbers of a leading-axis scatter of `[R]` updates into `[N]` by scatter indices `[R, 1]`. -/
abbrev rowSDims1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a leading-axis scatter of `[R, B]` update rows into `[N, B]` by scatter indices `[R, 1]`. -/
abbrev rowSDims2 (N B R : Nat) (wf : ScatterDims.WF ⟨2, ![N, B]⟩ ⟨2, ![R, 1]⟩ ⟨2, ![R, B]⟩ [1] [0] [0] 1) :
    ScatterDims ⟨2, ![N, B]⟩ ⟨2, ![R, 1]⟩ ⟨2, ![R, B]⟩ where
  updateWindowDims := [1]
  insertedWindowDims := [0]
  scatterDimsToOperandDims := [0]
  indexVectorDim := 1
  wf := wf

/-- The rows of the updates that land on operand row `n`: those whose index, read signed, is `n`. -/
abbrev hits {R w : Nat} (idx : IVec ⟨2, ![R, 1]⟩ w) (n : Nat) : Finset (Fin R) :=
  Finset.univ.filter fun r : Fin R => (idx (ix2 r (0 : Fin 1))).toInt = (n : Int)

/-- On the operand's one axis the window of update row `r` starts at the row's index, read signed. -/
theorem rowSDims1_start {N R w : Nat}
    (wf : ScatterDims.WF ⟨1, ![N]⟩ ⟨2, ![R, 1]⟩ ⟨1, ![R]⟩ [] [0] [0] 1)
    (idx : IVec ⟨2, ![R, 1]⟩ w) (r : Fin R) :
    (rowSDims1 N R wf).start (ix1 r) idx ⟨0, Nat.one_pos⟩ = (idx (ix2 r (0 : Fin 1))).toInt := by
  unfold ScatterDims.start
  rw [dif_pos (show (⟨0, Nat.one_pos⟩ : Fin 1) ∈ (rowSDims1 N R wf).scatterDimsToOperandDims from List.mem_singleton.mpr rfl)]
  have hsi : (rowSDims1 N R wf).siIdx (ix1 r) ⟨List.idxOf (⟨0, Nat.one_pos⟩ : Fin 1) (rowSDims1 N R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The operand's one axis is inserted: an update row has no window coordinate on it. -/
theorem rowSDims1_window {N R : Nat}
    (wf : ScatterDims.WF ⟨1, ![N]⟩ ⟨2, ![R, 1]⟩ ⟨1, ![R]⟩ [] [0] [0] 1) (r : Fin R) :
    (rowSDims1 N R wf).window (ix1 r) ⟨0, Nat.one_pos⟩ = 0 := by
  unfold ScatterDims.window
  rw [dif_neg]
  intro h
  simp [ScatterDims.sKept, Shape.kept] at h

/-- Update row `r` lands at its index read signed: start plus window coordinate on the operand's one axis. -/
theorem rowSDims1_land {N R w : Nat}
    (wf : ScatterDims.WF ⟨1, ![N]⟩ ⟨2, ![R, 1]⟩ ⟨1, ![R]⟩ [] [0] [0] 1)
    (idx : IVec ⟨2, ![R, 1]⟩ w) (r : Fin R) (a : Fin 1) :
    (rowSDims1 N R wf).start (ix1 r) idx a + ((rowSDims1 N R wf).window (ix1 r) a : Int)
      = (idx (ix2 r (0 : Fin 1))).toInt := by
  match a with
  | ⟨0, _⟩ => rw [rowSDims1_start, rowSDims1_window]; simp

/-- Update row `r` lands on operand entry `n` exactly when its index, read signed, is `n`: a negative index or one
    past the operand's end lands nowhere. -/
theorem rowSDims1_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (rowSDims1 N R wf).resultIdx? (ix1 r) idx = some (ix1 n)
      ↔ (idx (ix2 r (0 : Fin 1))).toInt = (n.val : Int) := by
  unfold ScatterDims.resultIdx?
  constructor
  · intro h
    split at h
    · have h0 := congrArg Fin.val (congrFun (Option.some.inj h) ⟨0, Nat.one_pos⟩)
      rename_i hc
      have hc0 := (hc ⟨0, Nat.one_pos⟩).1
      rw [rowSDims1_land] at hc0
      have h1 : ((rowSDims1 N R wf).start (ix1 r) idx ⟨0, Nat.one_pos⟩
          + ((rowSDims1 N R wf).window (ix1 r) ⟨0, Nat.one_pos⟩ : Int)).toNat = n.val := h0
      rw [rowSDims1_land] at h1
      omega
    · exact absurd h (by simp)
  · intro h
    have hc : ∀ a : Fin 1, 0 ≤ (rowSDims1 N R wf).start (ix1 r) idx a + ((rowSDims1 N R wf).window (ix1 r) a : Int)
        ∧ (rowSDims1 N R wf).start (ix1 r) idx a + ((rowSDims1 N R wf).window (ix1 r) a : Int)
          < (((⟨1, ![N]⟩ : Shape).size a : Nat) : Int) := by
      intro a
      rw [rowSDims1_land, h]
      match a with
      | ⟨0, _⟩ =>
        refine ⟨by omega, ?_⟩
        show (n.val : Int) < ((N : Nat) : Int)
        have := n.isLt
        omega
    rw [dif_pos hc]
    congr 1
    funext a
    match a with
    | ⟨0, _⟩ =>
      refine Fin.ext ?_
      show ((rowSDims1 N R wf).start (ix1 r) idx ⟨0, Nat.one_pos⟩
          + ((rowSDims1 N R wf).window (ix1 r) ⟨0, Nat.one_pos⟩ : Int)).toNat = n.val
      rw [rowSDims1_land, h]
      omega

/-- Entry `n` of the accumulating row scatter into `[N]`: the operand's entry plus the updates of the rows that land on it. -/
theorem rowScatterAdd1_apply {N R w : Nat} {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (rowSDims1 N R wf) x idx upd (ix1 n)
      = x (ix1 n) + ∑ r ∈ hits idx n.val, upd (ix1 r) := by
  unfold Host.scatterAdd
  rw [Ideal.hostScatterAdd_def]
  unfold Ideal.hostScatterAdd
  congr 1
  refine Finset.sum_nbij' (fun j => (j 0 : Fin R)) (fun r => ix1 r) ?_ ?_ ?_ ?_ ?_
  · intro j hj
    have h := (Finset.mem_filter.mp hj).2
    rw [eq_ix1 j] at h
    exact Finset.mem_filter.mpr ⟨Finset.mem_univ _, (rowSDims1_resultIdx_iff wf idx (j 0) n).mp h⟩
  · intro r hr
    exact Finset.mem_filter.mpr ⟨Finset.mem_univ _, (rowSDims1_resultIdx_iff wf idx r n).mpr (Finset.mem_filter.mp hr).2⟩
  · intro j _
    exact (eq_ix1 j).symm
  · intro r _
    rfl
  · intro j _
    exact congrArg upd (eq_ix1 j)

/-- On the row axis the window of update entry `(r, b')` starts at row `r`'s index, read signed. -/
theorem rowSDims2_start_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩ = (idx (ix2 r (0 : Fin 1))).toInt := by
  unfold ScatterDims.start
  rw [dif_pos (show (⟨0, Nat.zero_lt_two⟩ : Fin 2) ∈ (rowSDims2 N B R wf).scatterDimsToOperandDims from List.mem_singleton.mpr rfl)]
  have hsi : (rowSDims2 N B R wf).siIdx (ix2 r b') ⟨List.idxOf (⟨0, Nat.zero_lt_two⟩ : Fin 2) (rowSDims2 N B R wf).scatterDimsToOperandDims,
      List.idxOf_lt_length_iff.2 (List.mem_singleton.mpr rfl)⟩ = ix2 r (0 : Fin 1) := by
    funext c; refine Fin.ext ?_
    match c with
    | ⟨0, _⟩ => rfl
    | ⟨1, _⟩ => rfl
  rw [hsi]

/-- The column axis is not named by the index map: the window starts at `0` there. -/
theorem rowSDims2_start_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩ = 0 := by
  unfold ScatterDims.start
  rw [dif_neg (fun h => absurd (congrArg Fin.val (List.mem_singleton.mp h)) (Nat.succ_ne_zero _))]

/-- The row axis is inserted: an update entry has no window coordinate on it. -/
theorem rowSDims2_window_row {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨0, Nat.zero_lt_two⟩ = 0 := by
  unfold ScatterDims.window
  rw [dif_neg]
  intro h
  simp [ScatterDims.sKept, Shape.kept] at h

/-- On the column axis the window coordinate of update entry `(r, b')` is `b'`. -/
theorem rowSDims2_window_col {N B R : Nat}
    (wf : ScatterDims.WF ⟨2, ![N, B]⟩ ⟨2, ![R, 1]⟩ ⟨2, ![R, B]⟩ [1] [0] [0] 1) (r : Fin R) (b' : Fin B) :
    (rowSDims2 N B R wf).window (ix2 r b') ⟨1, Nat.one_lt_two⟩ = b'.val := by
  unfold ScatterDims.window
  rw [dif_pos (show (⟨1, Nat.one_lt_two⟩ : Fin 2) ∈ (rowSDims2 N B R wf).sKept by simp [ScatterDims.sKept, Shape.kept])]
  rfl

/-- Update entry `(r, b')` lands on the row its index names, read signed. -/
theorem rowSDims2_land_row {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨0, Nat.zero_lt_two⟩
        + ((rowSDims2 N B R wf).window (ix2 r b') ⟨0, Nat.zero_lt_two⟩ : Int)
      = (idx (ix2 r (0 : Fin 1))).toInt := by
  rw [rowSDims2_start_row, rowSDims2_window_row]; simp

/-- Update entry `(r, b')` lands on column `b'`. -/
theorem rowSDims2_land_col {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) :
    (rowSDims2 N B R wf).start (ix2 r b') idx ⟨1, Nat.one_lt_two⟩
        + ((rowSDims2 N B R wf).window (ix2 r b') ⟨1, Nat.one_lt_two⟩ : Int)
      = (b'.val : Int) := by
  rw [rowSDims2_start_col, rowSDims2_window_col]; simp

/-- Update entry `(r, b')` lands on operand entry `(n, b)` exactly when row `r`'s index, read signed, is `n` and
    `b' = b`. -/
theorem rowSDims2_resultIdx_iff {N B R w : Nat}
    (wf : ScatterDims.WF ⟨2, ![N, B]⟩ ⟨2, ![R, 1]⟩ ⟨2, ![R, B]⟩ [1] [0] [0] 1)
    (idx : IVec ⟨2, ![R, 1]⟩ w) (r : Fin R) (b' : Fin B) (n : Fin N) (b : Fin B) :
    (rowSDims2 N B R wf).resultIdx? (ix2 r b') idx = some (ix2 n b)
      ↔ (idx (ix2 r (0 : Fin 1))).toInt = (n.val : Int) ∧ b' = b := by
  unfold ScatterDims.resultIdx?
  constructor
  · intro h
    split at h
    · rename_i hc
      have h0 := congrArg Fin.val (congrFun (Option.some.inj h) ⟨0, Nat.zero_lt_two⟩)
      have h1 := congrArg Fin.val (congrFun (Option.some.inj h) ⟨1, Nat.one_lt_two⟩)
      have hc0 := (hc ⟨0, Nat.zero_lt_two⟩).1
      rw [rowSDims2_land_row] at hc0
      have e0 : ((rowSDims2 N B R wf).start (ix2 r b') idx ⟨0, Nat.zero_lt_two⟩
          + ((rowSDims2 N B R wf).window (ix2 r b') ⟨0, Nat.zero_lt_two⟩ : Int)).toNat = n.val := h0
      have e1 : ((rowSDims2 N B R wf).start (ix2 r b') idx ⟨1, Nat.one_lt_two⟩
          + ((rowSDims2 N B R wf).window (ix2 r b') ⟨1, Nat.one_lt_two⟩ : Int)).toNat = b.val := h1
      rw [rowSDims2_land_row] at e0
      rw [rowSDims2_land_col] at e1
      exact ⟨by omega, Fin.ext (by omega)⟩
    · exact absurd h (by simp)
  · rintro ⟨h, rfl⟩
    have hc : ∀ a : Fin 2, 0 ≤ (rowSDims2 N B R wf).start (ix2 r b') idx a + ((rowSDims2 N B R wf).window (ix2 r b') a : Int)
        ∧ (rowSDims2 N B R wf).start (ix2 r b') idx a + ((rowSDims2 N B R wf).window (ix2 r b') a : Int)
          < (((⟨2, ![N, B]⟩ : Shape).size a : Nat) : Int) := by
      intro a
      match a with
      | ⟨0, _⟩ =>
        rw [rowSDims2_land_row, h]
        refine ⟨by omega, ?_⟩
        show (n.val : Int) < ((N : Nat) : Int)
        have := n.isLt
        omega
      | ⟨1, _⟩ =>
        rw [rowSDims2_land_col]
        refine ⟨by omega, ?_⟩
        show (b'.val : Int) < ((B : Nat) : Int)
        have := b'.isLt
        omega
    rw [dif_pos hc]
    congr 1
    funext a
    match a with
    | ⟨0, _⟩ =>
      refine Fin.ext ?_
      show ((rowSDims2 N B R wf).start (ix2 r b') idx ⟨0, Nat.zero_lt_two⟩
          + ((rowSDims2 N B R wf).window (ix2 r b') ⟨0, Nat.zero_lt_two⟩ : Int)).toNat = n.val
      rw [rowSDims2_land_row, h]
      omega
    | ⟨1, _⟩ =>
      refine Fin.ext ?_
      show ((rowSDims2 N B R wf).start (ix2 r b') idx ⟨1, Nat.one_lt_two⟩
          + ((rowSDims2 N B R wf).window (ix2 r b') ⟨1, Nat.one_lt_two⟩ : Int)).toNat = b'.val
      rw [rowSDims2_land_col]
      omega

/-- Entry `(n, b)` of the accumulating row scatter into `[N, B]`: the operand's entry plus column `b` of the update rows
    that land on row `n`. -/
theorem rowScatterAdd2_apply {N B R w : Nat} {φ : FTy}
    (wf : ScatterDims.WF ⟨2, ![N, B]⟩ ⟨2, ![R, 1]⟩ ⟨2, ![R, B]⟩ [1] [0] [0] 1)
    (x : FVec Ideal ⟨2, ![N, B]⟩ φ) (idx : IVec ⟨2, ![R, 1]⟩ w) (upd : FVec Ideal ⟨2, ![R, B]⟩ φ) (n : Fin N) (b : Fin B) :
    Host.scatterAdd (rowSDims2 N B R wf) x idx upd (ix2 n b)
      = x (ix2 n b) + ∑ r ∈ hits idx n.val, upd (ix2 r b) := by
  unfold Host.scatterAdd
  rw [Ideal.hostScatterAdd_def]
  unfold Ideal.hostScatterAdd
  congr 1
  have hland : ∀ j : (⟨2, ![R, B]⟩ : Shape).Idx,
      (rowSDims2 N B R wf).resultIdx? j idx = some (ix2 n b) →
        (idx (ix2 (j 0) (0 : Fin 1))).toInt = (n.val : Int) ∧ j = ix2 (j 0) b := by
    intro j h
    rw [eq_ix2 j] at h
    obtain ⟨h0, h1⟩ := (rowSDims2_resultIdx_iff wf idx (j 0) (j 1) n b).mp h
    refine ⟨h0, ?_⟩
    rw [← h1]
    exact eq_ix2 j
  refine Finset.sum_nbij' (fun j => (j 0 : Fin R)) (fun r => ix2 r b) ?_ ?_ ?_ ?_ ?_
  · intro j hj
    exact Finset.mem_filter.mpr ⟨Finset.mem_univ _, (hland j (Finset.mem_filter.mp hj).2).1⟩
  · intro r hr
    exact Finset.mem_filter.mpr ⟨Finset.mem_univ _,
      (rowSDims2_resultIdx_iff wf idx r b n b).mpr ⟨(Finset.mem_filter.mp hr).2, rfl⟩⟩
  · intro j hj
    exact (hland j (Finset.mem_filter.mp hj).2).2.symm
  · intro r _
    rfl
  · intro j hj
    exact congrArg upd (hland j (Finset.mem_filter.mp hj).2).2

/-- The dimension numbers of a gather out of `[N]` by start indices `[R, 1]`. -/
abbrev rowDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result entry `r` of the gather out of `[N]` is operand entry `clamp idx[r, 0]`. -/
theorem rowGather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (rowDims1 N R wf) x idx (ix1 r)
      = x (ix1 ⟨min (idx (ix2 r (0 : Fin 1))).toInt.toNat (N - 1), by omega⟩) := by
  unfold Host.gather
  congr 1
  funext ax
  refine Fin.ext ?_
  show (rowDims1 N R wf).start (ix1 r) idx ax + (rowDims1 N R wf).batchCoord (ix1 r) ax
    + (rowDims1 N R wf).offCoord (ix1 r) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 1) ∈ (rowDims1 N R wf).startIndexMap from List.mem_singleton.mpr rfl)]
    have hsi : (rowDims1 N R wf).siIdx (ix1 r) ⟨List.idxOf (⟨0, by decide⟩ : Fin 1) (rowDims1 N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl

end Cert.LibRowScatter

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.AggLayer1.lean ====
/-
  The first graph convolution's aggregation, written two ways.

  The features are a column x : [N, 1] and the weight a row W : [1, 16].  One program forms the table x W : [N, 16]
  first, gathers its rows by source, scales row e by (a_e · b_e) and scatter-adds the rows into [N, 16] by
  destination.  The other aggregates the scalar column first — (x[s]_e · a_e) · b_e summed over the edges landing
  on n — and multiplies the aggregate by W afterwards.  Entry (n, j) of both is
  (∑ over edges e landing on n of x[s_e] · a_e · b_e) · W_j, by distributivity of the product over the finite sum;
  distributivity needs every term to be a real number (at an infinity it fails), which is why x, W and the two scale
  arrays are assumed real.
-/
import proofs.«419158_j83760452206926_4_alg».proof.KernelIdeal
import proofs.«419158_j83760452206926_4_alg».proof.ReferenceIdeal
import proofs.«419158_j83760452206926_4_alg».proof.Proof.LibRowScatter
import proofs.«419158_j83760452206926_4_alg».proof.Proof.LibRowGather
import proofs.«419158_j83760452206926_4_alg».proof.Proof.LibRealVariance
import proofs.«419158_j83760452206926_4_alg».proof.Proof.RefRead
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.Alg
open scoped BigOperators

namespace Agg1

/-! ### Layout operations read at an entry -/

section Layout
variable {α : Type}

/-- A scalar broadcast to any shape reads the scalar everywhere. -/
theorem bcast_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun c => c.elim0)

/-- A vector [a] written as a column [a, 1] reads, at (i, u), the vector at i. -/
theorem bcast_a_a1_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h v (ix2 i u) = v (ix1 i) :=
  broadcastInDim_apply _ h v _ _ (fun c => match c with
    | ⟨0, _⟩ => by
      show i.val = if a = 1 then 0 else i.val
      have := i.isLt
      split <;> omega)

/-- A column [a, 1] repeated along b columns reads, at (i, j), the column at (i, 0). -/
theorem bcast_a1_ab_apply {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h v (ix2 i j) = v (ix2 i (0 : Fin 1)) :=
  broadcastInDim_apply _ h v _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

/-- A row [1, b] repeated along a rows reads, at (i, j), the row at (0, j). -/
theorem bcast_1b_ab_apply {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ ![0, 1] h v (ix2 i j) = v (ix2 (0 : Fin 1) j) :=
  broadcastInDim_apply _ h v _ _ (fun c => match c with
    | ⟨0, _⟩ => by
      show 0 = if (1 : ℕ) = 1 then 0 else i.val
      rw [if_pos rfl]
    | ⟨1, _⟩ => by
      show j.val = if b = 1 then 0 else j.val
      have := j.isLt
      split <;> omega)

/-- A column [a, 1] flattened to [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-- A re-tiling commutes with the entrywise product: both read the two factors at the same re-indexed entry. -/
theorem shapeCast_mulf {s t : Shape} {φ : FTy} (a b : FVec Ideal s φ) (h : s.ShapeCasts t) :
    shapeCast t (mulf a b) h = mulf (shapeCast t a h) (shapeCast t b h) := rfl

/-- The product of three arrays formed on a re-tiling of them and flattened back is their product. -/
theorem retile_mul3 {s t : Shape} {φ : FTy} (a b c : FVec Ideal s φ) (h : s.ShapeCasts t) (h' : t.ShapeCasts s) :
    shapeCast s (mulf (mulf (shapeCast t a h) (shapeCast t b h)) (shapeCast t c h)) h' = mulf (mulf a b) c := by
  rw [← shapeCast_mulf, ← shapeCast_mulf, shapeCast_shapeCast]

/-- Distributivity over a finite sum, for real terms: summing (a_e · w) · (b_e · c_e) is the same as summing
    (a_e · b_e) · c_e and multiplying the total by w.  Every term is the embedding of a real number, so both sides
    are embeddings of real numbers and the identity is the one in ℝ. -/
theorem sum_mul_real {ι : Type*} (s : Finset ι) (a b c : ι → EReal) (w : EReal)
    (ha : ∀ e, IsReal (a e)) (hb : ∀ e, IsReal (b e)) (hc : ∀ e, IsReal (c e)) (hw : IsReal w) :
    0 + ∑ e ∈ s, (a e * w) * (b e * c e) = (0 + ∑ e ∈ s, (a e * b e) * c e) * w := by
  choose ar har using ha
  choose br hbr using hb
  choose cr hcr using hc
  obtain ⟨wr, rfl⟩ := hw
  simp only [har, hbr, hcr, zero_add, ← EReal.coe_mul, ← coe_finset_sum]
  rw [Finset.sum_mul]
  exact congrArg _ (Finset.sum_congr rfl fun e _ => by ring)

end Agg1

variable [hK : Cert.KernelIdeal.Facts] [hR : Cert.ReferenceIdeal.Facts]

namespace Agg1

/-- Entry (r, k) of the table x W, x a column and W a row: the contraction runs over the one shared index, so the
    entry is the single product x(r, 0) · W(0, k). -/
theorem dot_entry (x : FVec Ideal Cert.ReferenceIdeal.S131072x1 .f32) (W : FVec Ideal Cert.ReferenceIdeal.S1x16 .f32)
    (r : Fin 131072) (k : Fin 16) :
    Host.dotGeneral Cert.ReferenceIdeal.dot_S131072x1_S1x16_S131072x16_1_0_0_1_n_n none x W (ix2 r k)
      = x (ix2 r (0 : Fin 1)) * W (ix2 (0 : Fin 1) k) := by
  refine (Cert.ReferenceIdeal.ReadP.val_main_v4_apply x W (ix2 r k)).trans ?_
  have el : Cert.ReferenceIdeal.ReadP.lidx_main_v4 (ix2 r k) 0 = ix2 r (0 : Fin 1) :=
    funext fun a => match a with | ⟨0, _⟩ => rfl | ⟨1, _⟩ => rfl
  have er : Cert.ReferenceIdeal.ReadP.ridx_main_v4 (ix2 r k) 0 = ix2 (0 : Fin 1) k :=
    funext fun a => match a with | ⟨0, _⟩ => rfl | ⟨1, _⟩ => rfl
  rw [Fin.sum_univ_one, el, er]

/-- Entry (n, k) of the aggregation that forms the table first. -/
theorem lhs_entry
    (x : FVec Ideal Cert.ReferenceIdeal.S131072x1 .f32) (W : FVec Ideal Cert.ReferenceIdeal.S1x16 .f32)
    (sW dB : IVec Cert.ReferenceIdeal.S8519680x1 32)
    (ds dd : FVec Ideal Cert.ReferenceIdeal.S8519680 .f32) (n : Fin 131072) (k : Fin 16) :
    Host.scatterAdd Cert.ReferenceIdeal.scatter_S131072x16_S8519680x1_S8519680x16_1_0_0_1
        (broadcastInDim Cert.ReferenceIdeal.S131072x16 ![] Cert.ReferenceIdeal.Facts₀.bcast_S_S131072x16 (constant Cert.ReferenceIdeal.S_ .f32 0x00000000#32))
        dB
        (mulf (Host.gather Cert.ReferenceIdeal.gather_S131072x16_S8519680x1_S8519680x16_1_0_n_n_0_1_116
            (Host.dotGeneral Cert.ReferenceIdeal.dot_S131072x1_S1x16_S131072x16_1_0_0_1_n_n none x W) sW)
          (broadcastInDim Cert.ReferenceIdeal.S8519680x16 ![0, 1] Cert.ReferenceIdeal.Facts₀.bcast_S8519680x1_S8519680x16_0_1
            (broadcastInDim Cert.ReferenceIdeal.S8519680x1 ![0] Cert.ReferenceIdeal.Facts₀.bcast_S8519680_S8519680x1_0 (mulf ds dd))))
        (ix2 n k)
      = 0 + ∑ e ∈ Cert.LibRowScatter.hits dB n.val,
          (x (ix2 (⟨min (sW (ix2 e (0 : Fin 1))).toInt.toNat (131072 - 1), by omega⟩ : Fin 131072) (0 : Fin 1)) * W (ix2 (0 : Fin 1) k))
            * (ds (ix1 e) * dd (ix1 e)) := by
  refine (Cert.LibRowScatter.rowScatterAdd2_apply (N := 131072) (B := 16) (R := 8519680)
    Cert.ReferenceIdeal.Facts₀.scatter_S131072x16_S8519680x1_S8519680x16_1_0_0_1_wf _ dB _ n k).trans ?_
  refine congrArg₂ (· + ·) ?_ ?_
  · exact (bcast_scalar_apply _ _ _).trans Ideal.ofBits_zero_f32
  · refine Finset.sum_congr rfl fun e _ => ?_
    rw [mulf_apply]
    refine congrArg₂ (· * ·) ?_ ?_
    · refine (Cert.LibRowGather.rowGather2_apply (N := 131072) (B := 16) (R := 8519680) (by omega)
        Cert.ReferenceIdeal.Facts₀.gather_S131072x16_S8519680x1_S8519680x16_1_0_n_n_0_1_116_wf _ sW e k).trans ?_
      exact dot_entry x W _ k
    · refine (bcast_a1_ab_apply _ _ e k).trans ?_
      exact (bcast_a_a1_apply _ _ e 0).trans (mulf_apply ds dd (ix1 e))

/-- Entry (n, k) of the aggregation that sums the scalar column first and multiplies by the weight row afterwards. -/
theorem rhs_entry
    (x : FVec Ideal Cert.ReferenceIdeal.S131072x1 .f32) (W : FVec Ideal Cert.ReferenceIdeal.S1x16 .f32)
    (sW dB : IVec Cert.ReferenceIdeal.S8519680x1 32)
    (ds dd : FVec Ideal Cert.ReferenceIdeal.S8519680 .f32) (n : Fin 131072) (k : Fin 16) :
    mulf
        (broadcastInDim Cert.KernelIdeal.S131072x16 ![0, 1] Cert.KernelIdeal.Facts₀.bcast_S131072x1_S131072x16_0_1
          (broadcastInDim Cert.KernelIdeal.S131072x1 ![0] Cert.KernelIdeal.Facts₀.bcast_S131072_S131072x1_0
        (Host.scatterAdd Cert.KernelIdeal.scatter_S131072_S8519680x1_S8519680_n_0_0_1
          (broadcastInDim Cert.KernelIdeal.S131072 ![] Cert.KernelIdeal.Facts₀.bcast_S_S131072 (constant Cert.KernelIdeal.S_ .f32 0x00000000#32))
          dB
          (shapeCast Cert.KernelIdeal.S8519680
            (mulf (mulf
                (shapeCast Cert.KernelIdeal.S66560x128
                  (Host.gather Cert.KernelIdeal.gather_S131072_S8519680x1_S8519680_n_0_n_n_0_1_1
                    (shapeCast Cert.KernelIdeal.S131072 x Cert.KernelIdeal.Facts₀.shapeCasts_S131072x1_S131072) sW)
                  Cert.KernelIdeal.Facts₀.shapeCasts_S8519680_S66560x128)
                (shapeCast Cert.KernelIdeal.S66560x128 ds Cert.KernelIdeal.Facts₀.shapeCasts_S8519680_S66560x128))
              (shapeCast Cert.KernelIdeal.S66560x128 dd Cert.KernelIdeal.Facts₀.shapeCasts_S8519680_S66560x128))
            Cert.KernelIdeal.Facts₀.shapeCasts_S66560x128_S8519680))))
        (broadcastInDim Cert.KernelIdeal.S131072x16 ![0, 1] Cert.KernelIdeal.Facts₀.bcast_S1x16_S131072x16_0_1 W)
        (ix2 n k)
      = (0 + ∑ e ∈ Cert.LibRowScatter.hits dB n.val,
          (x (ix2 (⟨min (sW (ix2 e (0 : Fin 1))).toInt.toNat (131072 - 1), by omega⟩ : Fin 131072) (0 : Fin 1)) * ds (ix1 e))
            * dd (ix1 e)) * W (ix2 (0 : Fin 1) k) := by
  refine (mulf_apply _ _ _).trans ?_
  refine congrArg₂ (· * ·) ?_ (bcast_1b_ab_apply W _ n k)
  refine (bcast_a1_ab_apply _ _ n k).trans ?_
  refine (bcast_a_a1_apply _ _ n 0).trans ?_
  rw [retile_mul3]
  refine (Cert.LibRowScatter.rowScatterAdd1_apply (N := 131072) (R := 8519680)
    Cert.KernelIdeal.Facts₀.scatter_S131072_S8519680x1_S8519680_n_0_0_1_wf _ dB _ n).trans ?_
  refine congrArg₂ (· + ·) ?_ ?_
  · exact (bcast_scalar_apply _ _ _).trans Ideal.ofBits_zero_f32
  · refine Finset.sum_congr rfl fun e _ => ?_
    refine (mulf_apply _ _ _).trans ?_
    refine congrArg₂ (· * ·) ((mulf_apply _ _ _).trans (congrArg₂ (· * ·) ?_ rfl)) rfl
    refine (Cert.LibRowScatter.rowGather1_apply (N := 131072) (R := 8519680) (by omega)
      Cert.KernelIdeal.Facts₀.gather_S131072_S8519680x1_S8519680_n_0_n_n_0_1_1_wf _ sW e).trans ?_
    exact shapeCast_a1_a_apply x _ _

end Agg1

/-- Both ways of aggregating the first layer's messages give the same [N, 16] array when the features, the weight row
    and the two scale arrays hold real numbers. -/
theorem agg_layer1_eq
    (x : FVec Ideal Cert.ReferenceIdeal.S131072x1 .f32) (W : FVec Ideal Cert.ReferenceIdeal.S1x16 .f32)
    (sW dB : IVec Cert.ReferenceIdeal.S8519680x1 32)
    (ds dd : FVec Ideal Cert.ReferenceIdeal.S8519680 .f32)
    (hx : ∀ i, IsReal (x i)) (hW : ∀ i, IsReal (W i)) (hds : ∀ i, IsReal (ds i)) (hdd : ∀ i, IsReal (dd i)) :
    Host.scatterAdd Cert.ReferenceIdeal.scatter_S131072x16_S8519680x1_S8519680x16_1_0_0_1
        (broadcastInDim Cert.ReferenceIdeal.S131072x16 ![] Cert.ReferenceIdeal.Facts₀.bcast_S_S131072x16 (constant Cert.ReferenceIdeal.S_ .f32 0x00000000#32))
        dB
        (mulf (Host.gather Cert.ReferenceIdeal.gather_S131072x16_S8519680x1_S8519680x16_1_0_n_n_0_1_116
            (Host.dotGeneral Cert.ReferenceIdeal.dot_S131072x1_S1x16_S131072x16_1_0_0_1_n_n none x W) sW)
          (broadcastInDim Cert.ReferenceIdeal.S8519680x16 ![0, 1] Cert.ReferenceIdeal.Facts₀.bcast_S8519680x1_S8519680x16_0_1
            (broadcastInDim Cert.ReferenceIdeal.S8519680x1 ![0] Cert.ReferenceIdeal.Facts₀.bcast_S8519680_S8519680x1_0 (mulf ds dd))))
      = mulf
        (broadcastInDim Cert.KernelIdeal.S131072x16 ![0, 1] Cert.KernelIdeal.Facts₀.bcast_S131072x1_S131072x16_0_1
          (broadcastInDim Cert.KernelIdeal.S131072x1 ![0] Cert.KernelIdeal.Facts₀.bcast_S131072_S131072x1_0
        (Host.scatterAdd Cert.KernelIdeal.scatter_S131072_S8519680x1_S8519680_n_0_0_1
          (broadcastInDim Cert.KernelIdeal.S131072 ![] Cert.KernelIdeal.Facts₀.bcast_S_S131072 (constant Cert.KernelIdeal.S_ .f32 0x00000000#32))
          dB
          (shapeCast Cert.KernelIdeal.S8519680
            (mulf (mulf
                (shapeCast Cert.KernelIdeal.S66560x128
                  (Host.gather Cert.KernelIdeal.gather_S131072_S8519680x1_S8519680_n_0_n_n_0_1_1
                    (shapeCast Cert.KernelIdeal.S131072 x Cert.KernelIdeal.Facts₀.shapeCasts_S131072x1_S131072) sW)
                  Cert.KernelIdeal.Facts₀.shapeCasts_S8519680_S66560x128)
                (shapeCast Cert.KernelIdeal.S66560x128 ds Cert.KernelIdeal.Facts₀.shapeCasts_S8519680_S66560x128))
              (shapeCast Cert.KernelIdeal.S66560x128 dd Cert.KernelIdeal.Facts₀.shapeCasts_S8519680_S66560x128))
            Cert.KernelIdeal.Facts₀.shapeCasts_S66560x128_S8519680))))
        (broadcastInDim Cert.KernelIdeal.S131072x16 ![0, 1] Cert.KernelIdeal.Facts₀.bcast_S1x16_S131072x16_0_1 W) := by
  funext j
  obtain ⟨n, k, rfl⟩ : ∃ (n : Fin 131072) (k : Fin 16), j = ix2 n k := ⟨j 0, j 1, eq_ix2 j⟩
  refine (Agg1.lhs_entry x W sW dB ds dd n k).trans ?_
  refine Eq.trans ?_ (Agg1.rhs_entry x W sW dB ds dd n k).symm
  exact Agg1.sum_mul_real _
    (fun e => x (ix2 (⟨min (sW (ix2 e (0 : Fin 1))).toInt.toNat (131072 - 1), by omega⟩ : Fin 131072) (0 : Fin 1)))
    (fun e => ds (ix1 e)) (fun e => dd (ix1 e)) (W (ix2 (0 : Fin 1) k))
    (fun _ => hx _) (fun _ => hds _) (fun _ => hdd _) (hW _)

end Cert.Bridge

end
-- ==== Proof.AggLayer2.lean ====
/-
  The second graph convolution's aggregation, written two ways.

  The table is a column t : [N, 1].  One program gathers rows t[s] as [E, 1], scales row e by (a_e · b_e) and
  scatter-adds the rows into [N, 1] by destination.  The other flattens the column to [N], gathers t[s] as [E],
  forms (t[s]_e · a_e) · b_e over a [E/128, 128] re-tiling, flattens back and scatter-adds into [N], then writes
  the result as a column.  Entry (n, 0) of both is the sum over the edges e landing on n of t[s_e] · a_e · b_e,
  by associativity of the product on the extended reals; no finiteness is needed.
-/
import proofs.«419158_j83760452206926_4_alg».proof.KernelIdeal
import proofs.«419158_j83760452206926_4_alg».proof.ReferenceIdeal
import proofs.«419158_j83760452206926_4_alg».proof.Proof.LibRowScatter
import proofs.«419158_j83760452206926_4_alg».proof.Proof.LibRowGather
import proofs.«419158_j83760452206926_4_alg».proof.Proof.LibRealVariance
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.Alg
open scoped BigOperators

variable [hK : Cert.KernelIdeal.Facts] [hR : Cert.ReferenceIdeal.Facts]

namespace Agg2

/-- A shape cast re-indexes its operand, so it passes through a pointwise product. -/
theorem shapeCast_mulf {s t : Shape} {φ : FTy} (a b : FVec Ideal s φ) (h : s.ShapeCasts t) :
    shapeCast t (mulf a b) h = mulf (shapeCast t a h) (shapeCast t b h) := rfl

/-- A product of three arrays formed under another shape and cast back is the product of the arrays themselves: the
    cast passes through both products, and a cast there and back is the identity. -/
theorem shapeCast_mulf_mulf_back {s t : Shape} {φ : FTy} (a b c : FVec Ideal s φ) (h : s.ShapeCasts t)
    (h' : t.ShapeCasts s) :
    shapeCast s (mulf (mulf (shapeCast t a h) (shapeCast t b h)) (shapeCast t c h)) h' = mulf (mulf a b) c := by
  rw [shapeCast_mulf, shapeCast_mulf, shapeCast_shapeCast, shapeCast_shapeCast, shapeCast_shapeCast]

/-- A column `[N, 1]` flattened to `[N]` reads, at `n`, the column's entry `(n, 0)`: both have row-major position `n`. -/
theorem shapeCast_col_apply {α : Type} {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n (0 : Fin 1)) :=
  shapeCast_apply x h _ _ (by
    rw [Shape.rowMajor_val_two, Shape.rowMajor_val_one]
    show n.val * 1 + 0 = n.val
    omega)

/-- A vector `[N]` broadcast along axis 0 to a column `[N, 1]` reads, at `(n, z)`, the vector's entry `n`. -/
theorem broadcastInDim_col_apply {α : Type} {N : Nat}
    (h : (⟨1, ![N]⟩ : Shape).BroadcastsInDim ⟨2, ![N, 1]⟩ ![0]) (x : (⟨1, ![N]⟩ : Shape).Idx → α)
    (n : Fin N) (z : Fin 1) :
    broadcastInDim ⟨2, ![N, 1]⟩ ![0] h x (ix2 n z) = x (ix1 n) :=
  broadcastInDim_apply _ h x _ _ (fun a => match a with
    | ⟨0, _⟩ => by
      show n.val = if N = 1 then 0 else n.val
      have := n.isLt
      split <;> omega)

/-- The table row edge `e` reads: its source index, read signed and clamped into the table. -/
abbrev srcRow (sW : IVec Cert.ReferenceIdeal.S8519680x1 32) (e : Fin 8519680) : Fin 131072 :=
  ⟨min (sW (ix2 e (0 : Fin 1))).toInt.toNat (131072 - 1), by omega⟩

/-- The column program at entry `(n, 0)`: the initial entry plus, over the edges landing on `n`, the table entry the
    edge reads times the product of the edge's two scales. -/
theorem agg2_left_apply
    (x0 : FVec Ideal Cert.ReferenceIdeal.S131072x1 .f32)
    (tbl : FVec Ideal Cert.ReferenceIdeal.S131072x1 .f32)
    (sW dB : IVec Cert.ReferenceIdeal.S8519680x1 32)
    (ds dd : FVec Ideal Cert.ReferenceIdeal.S8519680 .f32) (n : Fin 131072) :
    Host.scatterAdd Cert.ReferenceIdeal.scatter_S131072x1_S8519680x1_S8519680x1_1_0_0_1 x0 dB
        (mulf (Host.gather Cert.ReferenceIdeal.gather_S131072x1_S8519680x1_S8519680x1_1_0_n_n_0_1_11 tbl sW)
          (broadcastInDim Cert.ReferenceIdeal.S8519680x1 ![0] Cert.ReferenceIdeal.Facts₀.bcast_S8519680_S8519680x1_0 (mulf ds dd)))
        (ix2 n (0 : Fin 1))
      = x0 (ix2 n (0 : Fin 1))
        + ∑ e ∈ Cert.LibRowScatter.hits dB n.val, tbl (ix2 (srcRow sW e) (0 : Fin 1)) * (ds (ix1 e) * dd (ix1 e)) := by
  refine (Cert.LibRowScatter.rowScatterAdd2_apply (N := 131072) (B := 1) (R := 8519680)
    Cert.ReferenceIdeal.Facts₀.scatter_S131072x1_S8519680x1_S8519680x1_1_0_0_1_wf x0 dB _ n (0 : Fin 1)).trans ?_
  refine congrArg (fun s => x0 (ix2 n (0 : Fin 1)) + s) (Finset.sum_congr rfl fun e _ => ?_)
  refine (mulf_apply _ _ _).trans (congrArg₂ (· * ·) ?_ ?_)
  · exact Cert.LibRowGather.rowGather2_apply (N := 131072) (B := 1) (R := 8519680) (by omega)
      Cert.ReferenceIdeal.Facts₀.gather_S131072x1_S8519680x1_S8519680x1_1_0_n_n_0_1_11_wf tbl sW e (0 : Fin 1)
  · exact (broadcastInDim_col_apply _ (mulf ds dd) e (0 : Fin 1)).trans (mulf_apply ds dd (ix1 e))

/-- The flattened program at entry `(n, 0)`: the initial entry plus, over the edges landing on `n`, the table entry
    the edge reads times the first scale, times the second. -/
theorem agg2_right_apply
    (x0 : FVec Ideal Cert.KernelIdeal.S131072 .f32)
    (tbl : FVec Ideal Cert.ReferenceIdeal.S131072x1 .f32)
    (sW dB : IVec Cert.ReferenceIdeal.S8519680x1 32)
    (ds dd : FVec Ideal Cert.ReferenceIdeal.S8519680 .f32) (n : Fin 131072) :
    broadcastInDim Cert.KernelIdeal.S131072x1 ![0] Cert.KernelIdeal.Facts₀.bcast_S131072_S131072x1_0
        (Host.scatterAdd Cert.KernelIdeal.scatter_S131072_S8519680x1_S8519680_n_0_0_1 x0 dB
          (shapeCast Cert.KernelIdeal.S8519680
            (mulf (mulf
                (shapeCast Cert.KernelIdeal.S66560x128
                  (Host.gather Cert.KernelIdeal.gather_S131072_S8519680x1_S8519680_n_0_n_n_0_1_1
                    (shapeCast Cert.KernelIdeal.S131072 tbl Cert.KernelIdeal.Facts₀.shapeCasts_S131072x1_S131072) sW)
                  Cert.KernelIdeal.Facts₀.shapeCasts_S8519680_S66560x128)
                (shapeCast Cert.KernelIdeal.S66560x128 ds Cert.KernelIdeal.Facts₀.shapeCasts_S8519680_S66560x128))
              (shapeCast Cert.KernelIdeal.S66560x128 dd Cert.KernelIdeal.Facts₀.shapeCasts_S8519680_S66560x128))
            Cert.KernelIdeal.Facts₀.shapeCasts_S66560x128_S8519680))
        (ix2 n (0 : Fin 1))
      = x0 (ix1 n)
        + ∑ e ∈ Cert.LibRowScatter.hits dB n.val, tbl (ix2 (srcRow sW e) (0 : Fin 1)) * ds (ix1 e) * dd (ix1 e) := by
  refine (broadcastInDim_col_apply _ _ n (0 : Fin 1)).trans ?_
  rw [shapeCast_mulf_mulf_back]
  refine (Cert.LibRowScatter.rowScatterAdd1_apply (N := 131072) (R := 8519680)
    Cert.KernelIdeal.Facts₀.scatter_S131072_S8519680x1_S8519680_n_0_0_1_wf x0 dB _ n).trans ?_
  refine congrArg (fun s => x0 (ix1 n) + s) (Finset.sum_congr rfl fun e _ => ?_)
  refine (mulf_apply _ _ _).trans (congrArg₂ (· * ·) ((mulf_apply _ _ _).trans (congrArg₂ (· * ·) ?_ rfl)) rfl)
  refine (Cert.LibRowScatter.rowGather1_apply (N := 131072) (R := 8519680) (by omega)
    Cert.KernelIdeal.Facts₀.gather_S131072_S8519680x1_S8519680_n_0_n_n_0_1_1_wf _ sW e).trans ?_
  exact shapeCast_col_apply tbl _ _

end Agg2

/-- Both ways of aggregating the second layer's messages give the same [N, 1] column, for any table, index arrays
    and scale arrays. -/
theorem agg_layer2_eq
    (tbl : FVec Ideal Cert.ReferenceIdeal.S131072x1 .f32)
    (sW dB : IVec Cert.ReferenceIdeal.S8519680x1 32)
    (ds dd : FVec Ideal Cert.ReferenceIdeal.S8519680 .f32) :
    Host.scatterAdd Cert.ReferenceIdeal.scatter_S131072x1_S8519680x1_S8519680x1_1_0_0_1
        (broadcastInDim Cert.ReferenceIdeal.S131072x1 ![] Cert.ReferenceIdeal.Facts₀.bcast_S_S131072x1 (constant Cert.ReferenceIdeal.S_ .f32 0x00000000#32))
        dB
        (mulf (Host.gather Cert.ReferenceIdeal.gather_S131072x1_S8519680x1_S8519680x1_1_0_n_n_0_1_11 tbl sW)
          (broadcastInDim Cert.ReferenceIdeal.S8519680x1 ![0] Cert.ReferenceIdeal.Facts₀.bcast_S8519680_S8519680x1_0 (mulf ds dd)))
      = broadcastInDim Cert.KernelIdeal.S131072x1 ![0] Cert.KernelIdeal.Facts₀.bcast_S131072_S131072x1_0
        (Host.scatterAdd Cert.KernelIdeal.scatter_S131072_S8519680x1_S8519680_n_0_0_1
          (broadcastInDim Cert.KernelIdeal.S131072 ![] Cert.KernelIdeal.Facts₀.bcast_S_S131072 (constant Cert.KernelIdeal.S_ .f32 0x00000000#32))
          dB
          (shapeCast Cert.KernelIdeal.S8519680
            (mulf (mulf
                (shapeCast Cert.KernelIdeal.S66560x128
                  (Host.gather Cert.KernelIdeal.gather_S131072_S8519680x1_S8519680_n_0_n_n_0_1_1
                    (shapeCast Cert.KernelIdeal.S131072 tbl Cert.KernelIdeal.Facts₀.shapeCasts_S131072x1_S131072) sW)
                  Cert.KernelIdeal.Facts₀.shapeCasts_S8519680_S66560x128)
                (shapeCast Cert.KernelIdeal.S66560x128 ds Cert.KernelIdeal.Facts₀.shapeCasts_S8519680_S66560x128))
              (shapeCast Cert.KernelIdeal.S66560x128 dd Cert.KernelIdeal.Facts₀.shapeCasts_S8519680_S66560x128))
            Cert.KernelIdeal.Facts₀.shapeCasts_S66560x128_S8519680)) := by
  funext j
  obtain ⟨n, z, rfl⟩ : ∃ (n : Fin 131072) (z : Fin 1), j = ix2 n z := ⟨j 0, j 1, eq_ix2 j⟩
  obtain rfl : z = 0 := Subsingleton.elim _ _
  -- both sides at entry (n, 0): the same initial entry plus a sum over the same edges, whose terms differ only in
  -- how the three factors are bracketed
  refine (Agg2.agg2_left_apply _ tbl sW dB ds dd n).trans
    (Eq.trans ?_ (Agg2.agg2_right_apply _ tbl sW dB ds dd n).symm)
  refine congrArg₂ (· + ·) ?_ (Finset.sum_congr rfl fun e _ => (mul_assoc _ _ _).symm)
  -- the initial arrays are one scalar constant broadcast to [N, 1] and to [N]
  rfl

end Cert.Bridge

end
-- ==== Proof.LibHostReal.lean ====
/-
  Being a real number is preserved by every operation the program applies.

  Floats are read as extended reals. An array "is real" when each of its elements is a real number
  (neither infinity). Each operation below produces, at every result index, either one of its operands'
  elements (the layout operations: broadcast, reshape, slice, concatenation, gather, select), or a sum,
  difference, product or maximum of such elements (the pointwise ones), or a finite sum of them (reduction,
  contraction, accumulating scatter), or a quotient by a nonzero real, or the reciprocal square root of a
  positive real. In each case the calculus of real numbers inside the extended reals gives a real number.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«419158_j83760452206926_4_alg».proof.Proof.LibRealVariance

noncomputable section

namespace Cert.Alg

open Idealize.ShloMosaic
open scoped BigOperators

/-! ### Constants -/

/-- A splat of a pattern that denotes a real number is real. -/
theorem isReal_constant {s : Shape} {φ : FTy} {b : BitVec φ.bits} (h : IsReal (Ideal.ofBits φ b)) :
    ∀ i, IsReal (constant (F := Ideal) s φ b i) := fun _ => h

/-- The four literals of the program denote real numbers. -/
theorem isReal_ofBits_zero : IsReal (Ideal.ofBits .f32 0x00000000#32) := by
  rw [ofBits_zero]; exact IsReal.zero

theorem isReal_ofBits_one : IsReal (Ideal.ofBits .f32 0x3F800000#32) := by
  rw [ofBits_one]; exact IsReal.coe _

theorem isReal_ofBits_N : IsReal (Ideal.ofBits .f32 0x48435000#32) := by
  rw [ofBits_N]; exact IsReal.coe _

theorem isReal_ofBits_eps : IsReal (Ideal.ofBits .f32 0x3727C5AC#32) := by
  obtain ⟨e, _, he⟩ := ofBits_eps_pos
  rw [he]; exact IsReal.coe _

/-- The pattern of 200000.0 is not zero, and the pattern of 1.0 is positive. -/
theorem ofBits_N_ne_zero : Ideal.ofBits .f32 0x48435000#32 ≠ 0 := by
  rw [ofBits_N]; exact_mod_cast (by norm_num : (200000 : ℝ) ≠ 0)

theorem ofBits_one_pos : (0 : EReal) < Ideal.ofBits .f32 0x3F800000#32 := by
  rw [ofBits_one]; exact EReal.coe_pos.mpr one_pos

/-! ### Pointwise operations -/

section Pointwise
variable {s : Shape} {φ : FTy}

theorem isReal_addf (x y : FVec Ideal s φ) (hx : ∀ i, IsReal (x i)) (hy : ∀ i, IsReal (y i)) :
    ∀ i, IsReal (addf x y i) := fun i => (hx i).add (hy i)

theorem isReal_subf (x y : FVec Ideal s φ) (hx : ∀ i, IsReal (x i)) (hy : ∀ i, IsReal (y i)) :
    ∀ i, IsReal (subf x y i) := fun i => (hx i).sub (hy i)

theorem isReal_mulf (x y : FVec Ideal s φ) (hx : ∀ i, IsReal (x i)) (hy : ∀ i, IsReal (y i)) :
    ∀ i, IsReal (mulf x y i) := fun i => (hx i).mul (hy i)

theorem isReal_maximumf (x y : FVec Ideal s φ) (hx : ∀ i, IsReal (x i)) (hy : ∀ i, IsReal (y i)) :
    ∀ i, IsReal (maximumf x y i) := fun i => (hx i).max (hy i)

/-- The kernel's quotient by an array with no zero element. -/
theorem isReal_divf (x y : FVec Ideal s φ) (hx : ∀ i, IsReal (x i)) (hy : ∀ i, IsReal (y i))
    (hy0 : ∀ i, y i ≠ (0 : EReal)) : ∀ i, IsReal (divf x y i) :=
  fun i => (hx i).div (hy i) (hy0 i)

/-- The host's quotient by an array with no zero element. -/
theorem isReal_hostDivf (x y : FVec Ideal s φ) (hx : ∀ i, IsReal (x i)) (hy : ∀ i, IsReal (y i))
    (hy0 : ∀ i, y i ≠ (0 : EReal)) : ∀ i, IsReal (Host.divf x y i) :=
  fun i => (hx i).div (hy i) (hy0 i)

/-- The kernel's reciprocal square root of an array of positive reals. -/
theorem isReal_rsqrt (x : FVec Ideal s φ) (hx : ∀ i, IsReal (x i)) (hpos : ∀ i, (0 : EReal) < x i) :
    ∀ i, IsReal (rsqrt x i) := fun i => (hx i).rsqrt_of_pos (hpos i)

/-- The host's reciprocal square root of an array of positive reals. -/
theorem isReal_hostRsqrt (x : FVec Ideal s φ) (hx : ∀ i, IsReal (x i)) (hpos : ∀ i, (0 : EReal) < x i) :
    ∀ i, IsReal (Host.rsqrt x i) := fun i => (hx i).rsqrt_of_pos (hpos i)

/-- A change of format is the identity on extended reals. -/
theorem isReal_truncf (ψ : FTy) (x : FVec Ideal s φ) (h : ψ.bits < φ.bits) (hx : ∀ i, IsReal (x i)) :
    ∀ i, IsReal (truncf ψ x h i) := fun i => hx i

theorem isReal_extf (ψ : FTy) (x : FVec Ideal s φ) (h : φ.bits < ψ.bits) (hx : ∀ i, IsReal (x i)) :
    ∀ i, IsReal (extf ψ x h i) := fun i => hx i

/-- A lane-by-lane choice between two real arrays is real. -/
theorem isReal_select (c : IVec s 1) (a b : s.Idx → EReal) (ha : ∀ i, IsReal (a i)) (hb : ∀ i, IsReal (b i)) :
    ∀ i, IsReal (select c a b i) := by
  intro i
  unfold select Scalar.select
  split
  · exact ha i
  · exact hb i

end Pointwise

/-! ### Layout operations: each result element is an operand element -/

section Layout
variable {s t : Shape}

theorem isReal_broadcast (t : Shape) {x : EReal} (hx : IsReal x) : ∀ j, IsReal (broadcast t x j) :=
  fun _ => hx

theorem isReal_broadcastTo (t : Shape) (x : s.Idx → EReal) (h : s.Broadcasts t) (hx : ∀ i, IsReal (x i)) :
    ∀ j, IsReal (broadcastTo t x h j) := fun _ => hx _

theorem isReal_broadcastInDim (t : Shape) (dims : Fin s.rank → Fin t.rank) (h : s.BroadcastsInDim t dims)
    (x : s.Idx → EReal) (hx : ∀ i, IsReal (x i)) : ∀ j, IsReal (broadcastInDim t dims h x j) :=
  fun _ => hx _

theorem isReal_shapeCast (t : Shape) (x : s.Idx → EReal) (h : s.ShapeCasts t) (hx : ∀ i, IsReal (x i)) :
    ∀ j, IsReal (shapeCast t x h j) := fun _ => hx _

theorem isReal_extractStridedSlice (t : Shape) (off : Fin s.rank → Nat) (x : s.Idx → EReal) (h : s.Slices off t)
    (hx : ∀ i, IsReal (x i)) : ∀ j, IsReal (extractStridedSlice t off x h j) := fun _ => hx _

theorem isReal_transpose (t : Shape) (perm : List (Fin s.rank)) (x : s.Idx → EReal) (h : s.Transposes perm t)
    (hx : ∀ i, IsReal (x i)) : ∀ j, IsReal (transpose t perm x h j) := fun _ => hx _

/-- A row gather reads, at each result index, one operand element. -/
theorem isReal_gather {si : Shape} {w : Nat} (d : GatherDims s si t) (x : s.Idx → EReal) (idx : IVec si w)
    (hx : ∀ i, IsReal (x i)) : ∀ j, IsReal (Host.gather d x idx j) := fun _ => hx _

/-- A concatenation reads, at each result index, one element of one of its pieces. -/
theorem isReal_concatenate (t : Shape) (a : Fin t.rank) (xs : List ((s : Shape) × (s.Idx → EReal)))
    (h : Shape.Concatenates (xs.map (·.1)) t a) (hxs : ∀ p ∈ xs, ∀ i, IsReal (p.2 i)) :
    ∀ j, IsReal (concatenate t a xs h j) := by
  intro j
  unfold concatenate
  exact hxs _ (List.getElem_mem _) _

end Layout

/-! ### Sums: reduction, contraction, accumulating scatter -/

section Sums
variable {s : Shape} {φ : FTy}

/-- The host's sum over some axes: the initial value plus a finite sum of operand elements. -/
theorem isReal_hostReduceAdd {axes : List (Fin s.rank)} {t u : Shape} (x : FVec Ideal s φ)
    (init : u.Idx → Ideal φ) (h : s.ReducesTo axes t) (hu : 0 < u.numel)
    (hx : ∀ i, IsReal (x i)) (hinit : ∀ k, IsReal (init k)) :
    ∀ j, IsReal (Host.reduceAdd x init h hu j) := by
  intro j
  unfold Host.reduceAdd
  rw [Ideal.hostReduceAdd_def]
  unfold Ideal.hostReduceAdd
  exact (hinit _).add (IsReal.finset_sum _ _ fun i _ => hx i)

/-- The kernel's sum over some axes: a finite sum of operand elements. -/
theorem isReal_multiReduction_add {axes : List (Fin s.rank)} {t : Shape} (src : FVec Ideal s φ)
    (acc : BitVec φ.bits) (h : s.Reduces axes t) (hφ : FKind.Formats φ) (hacc : acc = FKind.add.neutral φ hφ)
    (hsrc : ∀ i, IsReal (src i)) : ∀ j, IsReal (multiReduction .add axes t src acc h hφ hacc j) := by
  intro j
  show IsReal (Ideal.reduceAdd h src j)
  unfold Ideal.reduceAdd
  exact IsReal.finset_sum _ _ fun i _ => hsrc i

/-- The accumulating scatter: each operand element plus a finite sum of update elements. -/
theorem isReal_scatterAdd {si u : Shape} {w : Nat} (d : ScatterDims s si u) (x : FVec Ideal s φ)
    (idx : IVec si w) (upd : FVec Ideal u φ) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact (hx i).add (IsReal.finset_sum _ _ fun j _ => hu j)

end Sums

section Contractions
variable {sl sr so : Shape} {φ₁ φ₂ : FTy}

/-- The kernel's matrix product: the accumulator plus a finite sum of products. -/
theorem isReal_matmul (d : DotDims sl sr so) (prec : Option ContractPrecision) (l : FVec Ideal sl φ₁)
    (r : FVec Ideal sr φ₂) (acc : FVec Ideal so .f32) (hl : ∀ i, IsReal (l i)) (hr : ∀ i, IsReal (r i))
    (hacc : ∀ j, IsReal (acc j)) : ∀ j, IsReal (matmul d prec l r acc j) := by
  intro j
  show IsReal (FloatOps.matmul d prec l r acc j)
  rw [Ideal.matmul_apply]
  exact (hacc j).add (IsReal.sum _ fun k => (hl _).mul (hr _))

/-- Into the zero accumulator. -/
theorem isReal_matmul_zero (d : DotDims sl sr so) (prec : Option ContractPrecision) (l : FVec Ideal sl φ₁)
    (r : FVec Ideal sr φ₂) (hl : ∀ i, IsReal (l i)) (hr : ∀ i, IsReal (r i)) :
    ∀ j, IsReal (matmul d prec l r (constant so .f32 0x00000000#32) j) :=
  isReal_matmul d prec l r _ hl hr (isReal_constant isReal_ofBits_zero)

/-- The host's matrix product: a finite sum of products. -/
theorem isReal_dotGeneral (d : DotDims sl sr so) (prec : Option ContractPrecision) (l : FVec Ideal sl φ₁)
    (r : FVec Ideal sr φ₂) (hl : ∀ i, IsReal (l i)) (hr : ∀ i, IsReal (r i)) :
    ∀ j, IsReal (Host.dotGeneral d prec l r j) := by
  intro j
  show IsReal (FloatOps.dotGeneral d prec .single l r j)
  rw [Ideal.dotGeneral_apply]
  exact IsReal.sum _ fun k => (hl _).mul (hr _)

end Contractions

/-! ### The arguments of the reciprocal square roots are positive reals -/

/-- A nonnegative real plus the positive literal 1e-5 is a positive real. -/
theorem add_eps_pos {v : EReal} (hv : ∃ r : ℝ, 0 ≤ r ∧ v = (r : EReal)) :
    ∃ r : ℝ, 0 < r ∧ v + Ideal.ofBits .f32 0x3727C5AC#32 = (r : EReal) := by
  obtain ⟨r, hr, rfl⟩ := hv
  obtain ⟨e, he, hE⟩ := ofBits_eps_pos
  exact ⟨r + e, by linarith, by rw [hE, EReal.coe_add]⟩

/-- … so it is positive, and its reciprocal square root is a real. -/
theorem add_eps_pos' {v : EReal} (hv : ∃ r : ℝ, 0 ≤ r ∧ v = (r : EReal)) :
    (0 : EReal) < v + Ideal.ofBits .f32 0x3727C5AC#32 := by
  obtain ⟨r, hr, h⟩ := add_eps_pos hv
  rw [h]; exact EReal.coe_pos.mpr hr

theorem isReal_add_eps {v : EReal} (hv : ∃ r : ℝ, 0 ≤ r ∧ v = (r : EReal)) :
    IsReal (v + Ideal.ofBits .f32 0x3727C5AC#32) := by
  obtain ⟨r, _, h⟩ := add_eps_pos hv
  exact ⟨r, h⟩

theorem isReal_rsqrt_add_eps {v : EReal} (hv : ∃ r : ℝ, 0 ≤ r ∧ v = (r : EReal)) :
    IsReal (Ideal.rsqrt (v + Ideal.ofBits .f32 0x3727C5AC#32)) :=
  (isReal_add_eps hv).rsqrt_of_pos (add_eps_pos' hv)

/-- The reference's normaliser: the reciprocal square root of the variance E[(a − E a)²] plus 1e-5, over a
    column of N ≠ 0 real entries, is a real. -/
theorem isReal_rsqrt_variance_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, (a i - Ideal.div (∑ i, a i) (N : EReal))
        * (a i - Ideal.div (∑ i, a i) (N : EReal))) (N : EReal) + Ideal.ofBits .f32 0x3727C5AC#32)) :=
  isReal_rsqrt_add_eps (variance_nonneg a ha N hN hN0)

/-- The kernel's normaliser: the same with the variance written E[a²] − E[a]². -/
theorem isReal_rsqrt_variance'_add_eps {ι : Type} [Fintype ι] (a : ι → EReal) (ha : ∀ i, IsReal (a i)) (N : ℝ)
    (hN : (Fintype.card ι : ℝ) = N) (hN0 : N ≠ 0) :
    IsReal (Ideal.rsqrt (Ideal.div (∑ i, a i * a i) (N : EReal)
        - Ideal.div (∑ i, a i) (N : EReal) * Ideal.div (∑ i, a i) (N : EReal)
        + Ideal.ofBits .f32 0x3727C5AC#32)) := by
  rw [variance_eq a ha N hN hN0]
  exact isReal_rsqrt_variance_add_eps a ha N hN hN0

/-- The degree normaliser: the greater of a real and a positive real is a positive real, so its reciprocal
    square root is a real. -/
theorem max_pos_right {x c : EReal} (hc0 : 0 < c) : 0 < max x c := lt_max_of_lt_right hc0

theorem isReal_rsqrt_max {x c : EReal} (hx : IsReal x) (hc : IsReal c) (hc0 : 0 < c) :
    IsReal (Ideal.rsqrt (max x c)) := (hx.max hc).rsqrt_of_pos (max_pos_right hc0)

theorem isReal_rsqrt_max_one {x : EReal} (hx : IsReal x) :
    IsReal (Ideal.rsqrt (max x (Ideal.ofBits .f32 0x3F800000#32))) :=
  isReal_rsqrt_max hx isReal_ofBits_one ofBits_one_pos

end Cert.Alg

end
-- ==== Proof.Finite.lean ====
/-
  The precondition read as "these entries are real numbers", and the degree normaliser is real.

  The precondition says that the absolute value of every entry of every float input is below +∞; an extended real
  whose absolute value is below +∞ is a real number.  Of that, the proof needs the node features (input 0) and the
  first weight row (input 3).
  The normaliser is `where(deg > 0, rsqrt(deg), 0)`: where the test holds the degree is a positive real and its
  reciprocal square root is a real; elsewhere the value is the zero fill.
-/
import proofs.«419158_j83760452206926_4_alg».proof.Pre_finite_inputs
import proofs.«419158_j83760452206926_4_alg».proof.Proof.LibRealVariance
import proofs.«419158_j83760452206926_4_alg».proof.Proof.LibHostReal
import Idealize.ShloMosaic.Lib.ReduceAll
import Idealize.ShloMosaic.Lib.ValueIdx
import Idealize.ShloMosaic.PureOps.Ideal.Laws

noncomputable section

namespace Cert.Bridge

open Idealize.ShloMosaic Idealize.ShloMosaic.ValueIdx Cert.Alg

/-! ### Comparisons of extended reals, read back from their one-bit answer -/

/-- A one-bit word made from a truth value is 1 exactly when the truth value is true. -/
private theorem ofBool_eq_one (b : Bool) : BitVec.ofBool b = 1#1 ↔ b = true := by cases b <;> decide

/-- The test "x > y" answers 1 exactly when y < x. -/
private theorem cmp_ogt_eq_one (x y : EReal) : Ideal.cmp .ogt x y = 1#1 ↔ y < x := by
  simp only [Ideal.cmp, ofBool_eq_one, decide_eq_true_eq]

/-- The test "x < y" answers 1 exactly when x < y. -/
private theorem cmp_olt_eq_one (x y : EReal) : Ideal.cmp .olt x y = 1#1 ↔ x < y := by
  simp only [Ideal.cmp, ofBool_eq_one, decide_eq_true_eq]

/-- The pattern 0x7F800000 (sign 0, exponent all ones, fraction 0) denotes +∞. -/
private theorem ofBits_inf : Ideal.ofBits .f32 0x7F800000#32 = (⊤ : EReal) := by
  simp [Ideal.ofBits, Ideal.ieee]

/-- Where the test `deg > zero` holds the value is the reciprocal square root of a positive real, elsewhere it is the
    fill: real either way, when the degrees and the fill are real and `zero` is the zero array. -/
theorem isReal_where_rsqrt {s : Shape} (deg zero fill : FVec Ideal s .f32)
    (hdeg : ∀ i, IsReal (deg i)) (hzero : ∀ i, zero i = (0 : EReal)) (hfill : ∀ i, IsReal (fill i)) :
    ∀ i, IsReal (select (cmpf (F := Ideal) .ogt deg zero) (Host.rsqrt deg) fill i) := by
  intro i
  rw [select_apply]
  by_cases hc : cmpf (F := Ideal) .ogt deg zero i = 1#1
  · -- the test holds: 0 < deg i, and deg i is real
    rw [hc, select_one]
    have hpos : (0 : EReal) < deg i := by
      have h1 : Ideal.cmp .ogt (deg i) (zero i) = 1#1 := hc
      rw [hzero i] at h1
      exact (cmp_ogt_eq_one _ _).1 h1
    exact isReal_hostRsqrt (s := s) (fun _ => deg i) (fun _ => hdeg i) (fun _ => hpos) i
  · -- the test fails: the fill
    rw [eq_zero_of_ne_one hc, select_zero]
    exact hfill i

section Pre
variable [hP : Cert.Pre_finite_inputs.Facts]
open Cert.Pre_finite_inputs

/-- An `and` of two one-bit arrays, at an index, is the `and` of the two bits. -/
private theorem andi_apply {s : Shape} (x y : IVec s 1) (i : s.Idx) : andi x y i = IntOp.andi (x i) (y i) := rfl

/-- The conjunction over all entries of the test |x| < +∞, answering 1, says every entry of x is a real number: the
    result of a reduction over all axes has one index, so every entry's test answered 1, and its absolute value
    max x (-x) is below +∞. -/
theorem isReal_of_all_abs_lt_inf {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
          (cmpf (F := Ideal) .olt (Host.absf x) (broadcastInDim s ![] bc (constant S_ .f32 0x7F800000#32)))
          (constantI S_ 1 1#1) hr hu ValueIdx.ix0 = 1#1) :
    ∀ i, IsReal (x i) := by
  intro i
  haveI : Subsingleton S_.Idx := ⟨fun a b => funext fun d => d.elim0⟩
  have h1 := Host.reduce_andi_all _ _ hr hu _ e i
  have h2 : Ideal.cmp .olt (max (x i) (-(x i))) (Ideal.ofBits .f32 0x7F800000#32) = 1#1 := h1
  rw [ofBits_inf, cmp_olt_eq_one] at h2
  exact isReal_of_abs_lt_top h2

/-- Under the precondition every node feature and every entry of the first weight row is a real number. -/
theorem real_of_pre
    (x0 : FVec Ideal S131072x1 .f32) (x1 : IVec S2x8388608 32) (x2 : IVec S131072 32) (x3 : FVec Ideal S1x16 .f32)
    (x4 : FVec Ideal S16 .f32) (x5 : FVec Ideal S16x1 .f32) (x6 : FVec Ideal S1 .f32) (x7 : FVec Ideal S1x16 .f32)
    (x8 : FVec Ideal S16 .f32) (x9 : FVec Ideal S16x8 .f32) (x10 : FVec Ideal S8 .f32) (x11 : FVec Ideal S8x1 .f32)
    (x12 : FVec Ideal S1 .f32)
    (h : Cert.Pre_finite_inputs.fn (F := Ideal) x0 x1 x2 x3 x4 x5 x6 x7 x8 x9 x10 x11 x12 = fun _ => 1#1) :
    (∀ i, IsReal (x0 i)) ∧ (∀ i, IsReal (x3 i)) := by
  have h0 := congrFun h ValueIdx.ix0
  dsimp only [fn, fn_part1, fn_part2, fn_part3] at h0
  simp only [andi_apply, IntOp.andi_eq_one] at h0
  -- the conjunction is (((x0 ∧ x3) ∧ x4) ∧ …) ∧ x12; keep the two innermost conjuncts
  obtain ⟨⟨⟨⟨⟨⟨⟨⟨⟨⟨e0, e3⟩, -⟩, -⟩, -⟩, -⟩, -⟩, -⟩, -⟩, -⟩, -⟩ := h0
  exact ⟨isReal_of_all_abs_lt_inf x0 _ _ _ e0, isReal_of_all_abs_lt_inf x3 _ _ _ e3⟩

end Pre

end Cert.Bridge

end
-- ==== Proof.KValue.lean ====
/-
  The kernel program's result is the reference's function of the same arguments.

  The normaliser where(deg > 0, rsqrt(deg), 0) is a real number at every node: the degree is a finite count.  With the
  node features and the first weight row real (the precondition), the first layer's output computed by aggregating the
  scalar feature and multiplying by the weight row afterwards equals the reference's, which aggregates the 16-channel
  table (distributivity over the edge sum, valid on real numbers).  The second layer's aggregation differs from the
  reference's only by a grouping of products and a re-tiling; the perceptron and the pool are the same operations.
-/
import proofs.«419158_j83760452206926_4_alg».proof.Proof.Gen.KernelIdeal.Frame
import proofs.«419158_j83760452206926_4_alg».proof.Proof.RefRead
import proofs.«419158_j83760452206926_4_alg».proof.Proof.KChain
import proofs.«419158_j83760452206926_4_alg».proof.Proof.RefFactor
import proofs.«419158_j83760452206926_4_alg».proof.Proof.KGlue
import proofs.«419158_j83760452206926_4_alg».proof.Proof.AggLayer1
import proofs.«419158_j83760452206926_4_alg».proof.Proof.AggLayer2
import proofs.«419158_j83760452206926_4_alg».proof.Proof.Finite
import proofs.«419158_j83760452206926_4_alg».proof.Proof.LibHostReal
import proofs.«419158_j83760452206926_4_alg».proof.Proof.Gen.ReferenceIdeal
set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

open Cert.Alg Cert.ReferenceIdeal.ReadP Cert.ReferenceIdeal.Bridge

variable (m : (ℓ : Loc nD τ sig) → Buf (Elt Ideal) ℓ) (ρ : Dev nD → PrngReg)

/-- Every node's degree is a real number: a finite sum of ones. -/
theorem real_deg (x1 : IVec S2x8388608 32) : ∀ i, IsReal (val_main_v11 (F := Ideal) x1 i) := by
  unfold val_main_v11
  refine isReal_scatterAdd _ _ _ _ (fun i => ?_) (fun j => ?_)
  · show IsReal (Ideal.ofBits .f32 0x00000000#32)
    exact isReal_ofBits_zero
  · show IsReal (Ideal.ofBits .f32 0x3F800000#32)
    exact isReal_ofBits_one

/-- The normaliser is a real number at every node. -/
theorem real_dinv (x1 : IVec S2x8388608 32) : ∀ i, IsReal (val_main_v15 (F := Ideal) x1 i) := by
  unfold val_main_v15 val_main_v13 val_main_v14
  refine Cert.Bridge.isReal_where_rsqrt (val_main_v11 (F := Ideal) x1) (val_main_v12 (F := Ideal)) (val_main_call0_v1 (F := Ideal))
    (real_deg x1) (fun i => ?_) (fun i => ?_)
  · show Ideal.ofBits .f32 0x00000000#32 = 0
    exact Ideal.ofBits_zero_f32
  · show IsReal (Ideal.ofBits .f32 0x00000000#32)
    exact isReal_ofBits_zero

/-- The normaliser gathered at the sources and at the destinations is real at every edge. -/
theorem real_ds (x1 : IVec S2x8388608 32) : ∀ i, IsReal (val_main_v22 (F := Ideal) x1 i) := by
  unfold val_main_v22
  exact isReal_gather _ _ _ (real_dinv x1)
theorem real_dd (x1 : IVec S2x8388608 32) : ∀ i, IsReal (val_main_v29 (F := Ideal) x1 i) := by
  unfold val_main_v29
  exact isReal_gather _ _ _ (real_dinv x1)

/-- The first law at the extended reals, on real inputs. -/
theorem l1_eq (x : FVec Ideal S131072x1 .f32) (W : FVec Ideal S1x16 .f32) (sW dB : IVec S8519680x1 32)
    (ds dd : FVec Ideal S8519680 .f32)
    (hx : ∀ i, IsReal (x i)) (hW : ∀ i, IsReal (W i)) (hds : ∀ i, IsReal (ds i)) (hdd : ∀ i, IsReal (dd i)) :
    l1R x W sW dB ds dd = l1K x W sW dB ds dd := by
  unfold l1R l1K
  exact Cert.Bridge.agg_layer1_eq x W sW dB ds dd hx hW hds hdd

/-- The second law at the extended reals. -/
theorem l2_eq (tbl : FVec Ideal S131072x1 .f32) (sW dB : IVec S8519680x1 32) (ds dd : FVec Ideal S8519680 .f32) :
    l2R tbl sW dB ds dd = l2K tbl sW dB ds dd := by
  unfold l2R l2K
  exact Cert.Bridge.agg_layer2_eq tbl sW dB ds dd

/-- The first layer: aggregate-then-project equals the reference's project-then-aggregate on real inputs. -/
theorem layer1_eq (c : Dev nD) (hx : ∀ i, IsReal (a0 m c i)) (hW : ∀ i, IsReal (a3 m c i)) :
    layer1K (r0 m ρ c) (d4 m ρ c) (w4 m ρ c) (b4 m ρ c)
      = val_main_v47 (F := Ideal) (a0 m c) (a1 m c) (a3 m c) (a4 m c) := by
  rw [chain_r0, chain_d4, chain_w4, chain_b4, glue1K, glue1R,
    l1_eq _ _ _ _ _ _ hx hW (real_ds (a1 m c)) (real_dd (a1 m c))]

/-- The second layer, from any first-layer output: the two groupings of the per-edge product agree. -/
theorem layer2_eq (c : Dev nD) (h1 : FVec Ideal S131072x16 .f32) :
    layer2K
        (mulf
          (mulf
            (shapeCast S66560x128
              (Host.gather gather_S131072_S8519680x1_S8519680_n_0_n_n_0_1_1
                (shapeCast S131072
                  (Host.dotGeneral dot_S131072x16_S16x1_S131072x1_1_0_0_1_n_n none h1 (a5 m c))
                  shapeCasts_S131072x1_S131072)
                (wrapB (val_main_v6 (F := Ideal) (a1 m c))))
              shapeCasts_S8519680_S66560x128)
            (shapeCast S66560x128
              (Host.gather gather_S131072_S8519680x1_S8519680_n_0_n_n_0_1_1 (val_main_v15 (F := Ideal) (a1 m c))
                (wrapB (val_main_v6 (F := Ideal) (a1 m c))))
              shapeCasts_S8519680_S66560x128))
          (shapeCast S66560x128
            (Host.gather gather_S131072_S8519680x1_S8519680_n_0_n_n_0_1_1 (val_main_v15 (F := Ideal) (a1 m c))
              (wrapB (val_main_v7 (F := Ideal) (a1 m c))))
            shapeCasts_S8519680_S66560x128))
        (val_main_v7 (F := Ideal) (a1 m c)) (a6 m c)
      = layer2R h1 (a1 m c) (a5 m c) (a6 m c) := by
  rw [glue2K, glue2R, l2_eq]

/-- The kernel program's result array is the reference's result function of the kernel's argument arrays, when the
    node features and the first weight row are real. -/
theorem kernel_value (c : Dev nD) (hx : ∀ i, IsReal (a0 m c i)) (hW : ∀ i, IsReal (a3 m c i)) :
    W15 m ρ c (Proc.devRef .tc main_v113)
      = val_main_v115 (F := Ideal) (a0 m c) (a1 m c) (a2 m c) (a3 m c) (a4 m c) (a5 m c) (a6 m c) (a7 m c) (a8 m c)
          (a9 m c) (a10 m c) (a11 m c) (a12 m c) := by
  rw [tail_v113, chain_r1, layer1_eq m ρ c hx hW, chain_d8, chain_t2, chain_t6, chain_t7, chain_t8, chain_t9, chain_t10,
    chain_t11, chain_t12, chain_s4, chain_d4, chain_n4, chain_p4, layer2_eq, ← v90_eq, ← v115_eq]

end Cert.KernelIdeal.Bridge

end
-- ==== Proof.lean ====
/-
  Two graph convolutions, a three-layer perceptron and a mean pool per graph: the kernel program against its reference.

  Both programs normalise each edge (s, d) by dinv[s] · dinv[d], dinv = where(deg > 0, rsqrt(deg), 0), deg the number of
  edges into a node with one self loop added.  The reference's first convolution projects the scalar node feature to 16
  channels (x W, W a [1, 16] row), gathers the 16-channel rows by source, scales them and scatter-adds them by
  destination.  The kernel program aggregates the SCALAR feature — the per-edge product x[s] · dinv[s] · dinv[d] is
  formed by a pipelined entrywise product over a [E/128, 128] re-tiling, then scatter-added by destination — and
  multiplies the aggregate by W afterwards.  The two agree by distributivity of the product over the finite edge sum,
  which holds for real numbers; the precondition makes the features and W real, and the normaliser is real because the
  degree is a finite count.  The second convolution's table h W₂ is already a column, and the two programs differ there
  only in how the three-factor product is grouped and tiled.  After it both apply the same operations.
  The frames of the two kernel programs are the generated certificates; the reference's is its generated run.  The ideal
  pass rewrote nothing, so the preservation claim is trivial.
-/
import proofs.«419158_j83760452206926_4_alg».proof.Defs
import proofs.«419158_j83760452206926_4_alg».proof.Proof.Gen.Kernel
import proofs.«419158_j83760452206926_4_alg».proof.Proof.Gen.Kernel.Frame
import proofs.«419158_j83760452206926_4_alg».proof.Proof.Gen.KernelIdeal
import proofs.«419158_j83760452206926_4_alg».proof.Proof.Gen.KernelIdeal.Frame
import proofs.«419158_j83760452206926_4_alg».proof.Proof.Gen.ReferenceIdeal
import proofs.«419158_j83760452206926_4_alg».proof.Proof.Gen.Pre_finite_inputs
import proofs.«419158_j83760452206926_4_alg».proof.Proof.KernelRun
import proofs.«419158_j83760452206926_4_alg».proof.Proof.KValue
import proofs.«419158_j83760452206926_4_alg».proof.Proof.RefRead
import proofs.«419158_j83760452206926_4_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame certificate. -/
theorem frame_k : Cert.frame_Kernel := fun m ρ _ => Cert.Kernel.Gen.frame m ρ

/-- The idealized kernel program runs and leaves its arguments: the generated frame certificate. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's result function of the (agreeing) argument arrays. -/
theorem algebraic : Cert.algebraic_KernelIdeal_ReferenceIdeal := by
  intro m ρ m' ρ' hpre hagree
  refine ⟨fun c => Cert.ReferenceIdeal.ReadP.val_main_v115 (F := Ideal)
    (Cert.KernelIdeal.Bridge.a0 m c) (Cert.KernelIdeal.Bridge.a1 m c) (Cert.KernelIdeal.Bridge.a2 m c)
    (Cert.KernelIdeal.Bridge.a3 m c) (Cert.KernelIdeal.Bridge.a4 m c) (Cert.KernelIdeal.Bridge.a5 m c)
    (Cert.KernelIdeal.Bridge.a6 m c) (Cert.KernelIdeal.Bridge.a7 m c) (Cert.KernelIdeal.Bridge.a8 m c)
    (Cert.KernelIdeal.Bridge.a9 m c) (Cert.KernelIdeal.Bridge.a10 m c) (Cert.KernelIdeal.Bridge.a11 m c)
    (Cert.KernelIdeal.Bridge.a12 m c), ?_, ?_⟩
  · refine (θ_run Cert.KernelIdeal.defs _ _).mono (fun r h c => ⟨(h c).1.trans ?_, (h c).2⟩)
      (Cert.KernelIdeal.GenRun.run_result (F := Ideal) m ρ)
    have hreal := Cert.Bridge.real_of_pre _ _ _ _ _ _ _ _ _ _ _ _ _ (hpre c)
    exact Cert.KernelIdeal.Bridge.kernel_value m ρ c hreal.1 hreal.2
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v115_eq, e0, e1, e2, e3, e4, e5, e6, e7, e8, e9, e10, e11, e12]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
